-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  reducesTo_S1x1024_S_d0_1 : S1x1024.ReducesTo [0, 1] S_
  dot_S1024x4096_S4096x1024_S1024x1024_1_0_0_1_n_n_wf : DotDims.WF S1024x4096 S4096x1024 S1024x1024 [1] [0] [0] [1] [] []

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def fn_part2 {F : FTy → Type} [FloatOps F] (main_arg2 : FVec F S4096x1024 .f32) (main_v33 : IVec S_ 1) : IVec S_ 1 :=
  let main_v34 : FVec F S1024x4096 .f32 := (transpose S1024x4096 [1, 0] · transposes_S4096x1024_S1024x4096_1_0) main_arg2
  let main_v35 : FVec F S1024x1024 .f32 := (fun l r => Host.dotGeneral dot_S1024x4096_S4096x1024_S1024x1024_1_0_0_1_n_n none l r) main_v34 main_arg2
  let main_v36 : FVec F S1024x1024 .f32 := Host.sqrt main_v35
  let main_cst_12 : FVec F S_ .f32 := constant S_ .f32 0x00000000#32
  let main_v37 : FVec F S1024 .f32 := (fun x v => Host.reduceAdd x v reducesTo_S1024x1024_S1024_d0 h_S_) main_v36 main_cst_12
  let main_v38 : FVec F S1x1024 .f32 := broadcastInDim S1x1024 ![1] bcast_S1024_S1x1024_1 main_v37
  let main_cst_13 : FVec F S_ .f32 := constant S_ .f32 0x00000000#32
  let main_v39 : FVec F S1x1024 .f32 := broadcastInDim S1x1024 ![] bcast_S_S1x1024 main_cst_13
  let main_v40 : IVec S1x1024 1 := cmpf .une main_v38 main_v39
  let main_c_14 : IVec S_ 1 := constantI S_ 1 1#1
  let main_v41 : IVec S_ 1 := (fun x v => Host.reduce IntOp.andi x v reducesTo_S1x1024_S_d0_1 h_S_) main_v40 main_c_14
  let main_v42 : IVec S_ 1 := andi main_v33 main_v41
  main_v42

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S1024x1024 : Shape := ⟨2, ![1024, 1024]⟩
abbrev S1024 : Shape := ⟨1, ![1024]⟩
abbrev S1024x1 : Shape := ⟨2, ![1024, 1]⟩
abbrev S2000x256 : Shape := ⟨2, ![2000, 256]⟩
abbrev S2000x1024 : Shape := ⟨2, ![2000, 1024]⟩
abbrev S2000 : Shape := ⟨1, ![2000]⟩
abbrev S2000x1 : Shape := ⟨2, ![2000, 1]⟩

abbrev nBuf : Space → Nat
  | .hbm => 12
  | .vmem => 14
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1024x256, .f32⟩
  | .hbm, ⟨10, _⟩ => ⟨S1024x256, .f32⟩
  | .hbm, ⟨11, _⟩ => ⟨S10000x256, .f32⟩
  | .local _ .vmem, ⟨0, _⟩ => ⟨S4096x1024, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S2000x256, .f32⟩
  | .local _ .vmem, ⟨13, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S256_S1x256 : S256.ShapeCasts S1x256
  inb_S4096x1024_S4096x1024_0_0 : ∀ a, (![0, 0] : Fin 2 → Nat) a + S4096x1024.size a ≤ S4096x1024.size a
  h_S4096x1024 : 0 < S4096x1024.numel
  bitsLt_bf16_f32 : FTy.bits .bf16 < FTy.bits .f32
  reduces_S1024x1024_S1024 : S1024x1024.Reduces [0] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  shapeCasts_S1024x256_S1024x256 : S1024x256.ShapeCasts S1024x256
  reduces_S2000x1024_S2000 : S2000x1024.Reduces [1] S2000
  shapeCasts_S2000_S2000x1 : S2000.ShapeCasts S2000x1
  broadcasts_S2000x1_S2000x1024 : S2000x1.Broadcasts S2000x1024
  broadcasts_S2000x1_S2000x256 : S2000x1.Broadcasts S2000x256
  dot_S4096x1024_S4096x1024_S1024x1024_0_0_1_1_n_n_wf : DotDims.WF S4096x1024 S4096x1024 S1024x1024 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x256_S2000x256_1_0_0_1_n_n_wf : DotDims.WF S2000x1024 S1024x256 S2000x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .f32 = 32 ∨ (Rect.block (s := S1024x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S1024x256.size a
  hwx1_4 : ∀ i : grid1.Coords, EltTy.bits .f32 = 32 ∨ (Rect.block (s := S1024x256) S1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def dot_S4096x1024_S4096x1024_S1024x1024_0_0_1_1_n_n : DotDims S4096x1024 S4096x1024 S1024x1024 where
  lhsContracting := [0]
  rhsContracting := [0]
  lhsNonContracting := [1]
  rhsNonContracting := [1]
  lhsBatch := []
  rhsBatch := []
  wf := dot_S4096x1024_S4096x1024_S1024x1024_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_v2_0) true false (stage0_4 0) (sem0_4 0) (Memref.isWhole_whole _) (hstage0_4 0)

abbrev win0_5 : Pipeline.Window sig grid0 :=
  Pipeline.Window.whole (Memref.whole main_v2_1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.Spec.lean ====
/-
  The two arrangements of one attention layer, as plain functions of the seven argument arrays over the
  extended reals, row by row.

  Both programs project the rows of `main` and `other` (`x Wᵀ + b`), score a query row against every key row
  (the dot product times 1/16), and weight the rows of a mixed table `om` by the softmax of the scores.  The mixed
  table comes from the Gram matrix `G = fixᵀ fix`: with `R = √G` entrywise and `c j = ∑ i, R i j` the column sums,
  the table is `om i d = ∑ j, (R i j / c j) · other j d`.

  The two arrangements differ in where the two divisions sit:
    * `mixK` divides `other j d` by `c j` before the product with `R i j`; `mixR` divides `R i j` by `c j`;
    * `outRowK` divides the weighted sum by the sum of the weights; `outRowR` divides every weight first.
-/
import Idealize.ShloMosaic.PureOps.Ideal
import Idealize.ShloMosaic.Lib.ValueIdx

noncomputable section

namespace Cert.Attn

open Idealize.ShloMosaic

/-- A matrix of extended reals. -/
abbrev Mat (a b : Nat) := Fin a → Fin b → EReal

/-- A rank-2 array read as a matrix. -/
def mat {a b : Nat} (x : (⟨2, ![a, b]⟩ : Shape).Idx → EReal) : Mat a b := fun r k => x (ValueIdx.ix2 r k)

/-- A rank-1 array read as a row. -/
def row {a : Nat} (x : (⟨1, ![a]⟩ : Shape).Idx → EReal) : Fin a → EReal := fun e => x (ValueIdx.ix1 e)

/-- An extended real that is a real number. -/
def IsReal (x : EReal) : Prop := ∃ r : ℝ, x = (r : EReal)

/-- One row projected: `(x Wᵀ + b) e = ∑ k, x k · W e k + b e`. -/
def projRow (x : Fin 256 → EReal) (W : Mat 256 256) (b : Fin 256 → EReal) (e : Fin 256) : EReal :=
  (∑ k : Fin 256, x k * W e k) + b e

/-- The projected keys, one row per row of `other`. -/
def keys (ot : Mat 1024 256) (wk : Mat 256 256) (bk : Fin 256 → EReal) : Mat 1024 256 :=
  fun j => projRow (ot j) wk bk

/-- The scaled scores of a query row against every key row: `(q · K j) / 16`. -/
def scoreRow (q : Fin 256 → EReal) (K : Mat 1024 256) (j : Fin 1024) : EReal :=
  (∑ e : Fin 256, q e * K j e) * (((1 : ℝ) / 16 : ℝ) : EReal)

/-- The maximum of a row of scores, folded from `-∞`. -/
def maxRow (a : Fin 1024 → EReal) : EReal := (Finset.univ : Finset (Fin 1024)).fold max ⊥ a

/-- The unnormalised softmax weights `exp (a j - max a)`. -/
def wtsRow (a : Fin 1024 → EReal) (j : Fin 1024) : EReal := Ideal.exp (a j - maxRow a)

/-- The Gram matrix `fixᵀ fix`. -/
def gram (fx : Mat 4096 1024) : Mat 1024 1024 := fun i j => ∑ k : Fin 4096, fx k i * fx k j

/-- Its entrywise square root. -/
def root (fx : Mat 4096 1024) : Mat 1024 1024 := fun i j => Ideal.sqrt (gram fx i j)

/-- The column sums of the root. -/
def colsum (fx : Mat 4096 1024) (j : Fin 1024) : EReal := ∑ i : Fin 1024, root fx i j

/-- The mixed table, `other` divided by the column sum first. -/
def mixK (fx : Mat 4096 1024) (ot : Mat 1024 256) : Mat 1024 256 :=
  fun i d => ∑ j : Fin 1024, root fx i j * Ideal.div (ot j d) (colsum fx j)

/-- The mixed table, the root divided by the column sum first. -/
def mixR (fx : Mat 4096 1024) (ot : Mat 1024 256) : Mat 1024 256 :=
  fun i d => ∑ j : Fin 1024, Ideal.div (root fx i j) (colsum fx j) * ot j d

/-- One output row: the weighted sum of the table's rows, divided by the sum of the weights. -/
def outRowK (a : Fin 1024 → EReal) (om : Mat 1024 256) (d : Fin 256) : EReal :=
  Ideal.div (∑ j : Fin 1024, wtsRow a j * om j d) (∑ j : Fin 1024, wtsRow a j)

/-- One output row: every weight divided by the sum of the weights, then the weighted sum. -/
def outRowR (a : Fin 1024 → EReal) (om : Mat 1024 256) (d : Fin 256) : EReal :=
  ∑ j : Fin 1024, Ideal.div (wtsRow a j) (∑ j' : Fin 1024, wtsRow a j') * om j d

/-- The whole result in the first arrangement. -/
def resultK (mn : Mat 10000 256) (ot : Mat 1024 256) (fx : Mat 4096 1024) (wq : Mat 256 256) (bq : Fin 256 → EReal)
    (wk : Mat 256 256) (bk : Fin 256 → EReal) : Mat 10000 256 :=
  fun r => outRowK (scoreRow (projRow (mn r) wq bq) (keys ot wk bk)) (mixK fx ot)

/-- The whole result in the second arrangement. -/
def resultR (mn : Mat 10000 256) (ot : Mat 1024 256) (fx : Mat 4096 1024) (wq : Mat 256 256) (bq : Fin 256 → EReal)
    (wk : Mat 256 256) (bk : Fin 256 → EReal) : Mat 10000 256 :=
  fun r => outRowR (scoreRow (projRow (mn r) wq bq) (keys ot wk bk)) (mixR fx ot)

end Cert.Attn

end
-- ==== Proof.Consts.lean ====
/-
  The float literals of the two programs, as the extended reals they denote: the fill `-∞` both maxima fold from,
  the reference's divisor `16`, and the kernel's factor `0.0625`, which is exactly `1/16`.  Dividing by the first
  is multiplying by the second, on every extended real.
-/
import Idealize.ShloMosaic.PureOps.Ideal

noncomputable section

namespace Cert.Attn

open Idealize.ShloMosaic

/-- The pattern of `-inf` denotes the bottom element. -/
theorem ofBits_neg_inf : Ideal.ofBits .f32 0xFF800000#32 = (⊥ : EReal) := by
  simp [Ideal.ofBits, Ideal.ieee]

/-- `16.0` denotes the real `16`. -/
theorem ofBits_sixteen : Ideal.ofBits .f32 0x41800000#32 = ((16 : ℝ) : EReal) := by
  simp [Ideal.ofBits, Ideal.ieee, -EReal.coe_mul]; norm_num

/-- `0.0625` denotes the real `1/16`. -/
theorem ofBits_sixteenth : Ideal.ofBits .f32 0x3D800000#32 = (((1 : ℝ) / 16 : ℝ) : EReal) := by
  simp [Ideal.ofBits, Ideal.ieee, -EReal.coe_mul]; norm_num

/-- The quotient by `16` is the product with `1/16`, at the infinities too. -/
theorem div_sixteen (x : EReal) :
    Ideal.div x (Ideal.ofBits .f32 0x41800000#32) = x * (((1 : ℝ) / 16 : ℝ) : EReal) := by
  rw [ofBits_sixteen]
  exact Ideal.div_coe (by norm_num) x

end Cert.Attn

end
-- ==== Proof.SpecLaws.lean ====
/-
  The laws that join the two arrangements.

  * The mixed table: termwise `R · (o / c) = (R / c) · o` whenever `c ≠ 0`, because off zero the quotient is the
    product with the inverse and the product of extended reals is commutative and associative.  No finiteness is used.
  * One output row: real scores give real positive weights whose sum `s` is a positive real, so dividing by `s` is
    multiplying by the non-negative real `s⁻¹`, and a non-negative real factor distributes over a sum of extended reals.
  * Sums and products of reals are reals, so finite arguments give real scores.
-/
import proofs.«147907_g52209622450808_cont_9to1_m_767_3_alg».proof.Proof.Spec

noncomputable section

namespace Cert.Attn

open Idealize.ShloMosaic

/-! ## Reals among the extended reals -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type} (s : Finset ι) (f : ι → EReal) (h : ∀ i ∈ s, IsReal (f i)) : IsReal (∑ i ∈ s, f i) := by
  classical
  revert h
  refine Finset.induction_on s (fun _ => ⟨0, by simp⟩) (fun a s ha ih h => ?_)
  rw [Finset.sum_insert ha]
  exact (h a (Finset.mem_insert_self a s)).add (ih fun i hi => h i (Finset.mem_insert_of_mem hi))

/-- The coercion commutes with finite sums. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

theorem isReal_projRow {x : Fin 256 → EReal} {W : Mat 256 256} {b : Fin 256 → EReal} (hx : ∀ k, IsReal (x k))
    (hW : ∀ e k, IsReal (W e k)) (hb : ∀ e, IsReal (b e)) (e : Fin 256) : IsReal (projRow x W b e) :=
  (IsReal.sum _ _ fun k _ => (hx k).mul (hW e k)).add (hb e)

theorem isReal_scoreRow {q : Fin 256 → EReal} {K : Mat 1024 256} (hq : ∀ e, IsReal (q e)) (hK : ∀ j e, IsReal (K j e))
    (j : Fin 1024) : IsReal (scoreRow q K j) :=
  (IsReal.sum _ _ fun e _ => (hq e).mul (hK j e)).mul ⟨_, rfl⟩

/-! ## The mixed table -/

/-- Off a zero column sum, dividing `other` first or the root first is the same term. -/
theorem mix_eq (fx : Mat 4096 1024) (ot : Mat 1024 256) (h : ∀ j, colsum fx j ≠ 0) : mixK fx ot = mixR fx ot := by
  funext i d
  unfold mixK mixR
  refine Finset.sum_congr rfl fun j _ => ?_
  unfold Ideal.div
  rw [if_neg (h j), if_neg (h j), mul_comm (ot j d) (colsum fx j)⁻¹, ← mul_assoc]

/-! ## One output row -/

/-- A non-negative real factor distributes over a finite sum of extended reals. -/
theorem sum_mul_coe {ι : Type} (s : Finset ι) (t : ι → EReal) {c : ℝ} (hc : 0 ≤ c) :
    (∑ i ∈ s, t i) * (c : EReal) = ∑ i ∈ s, t i * (c : EReal) := by
  classical
  refine Finset.induction_on s (by simp) (fun a s ha ih => ?_)
  rw [Finset.sum_insert ha, Finset.sum_insert ha,
    EReal.right_distrib_of_nonneg_of_ne_top (EReal.coe_nonneg.mpr hc) (EReal.coe_ne_top c), ih]

/-- The maximum of a row of reals, folded from `-∞`, is a real. -/
theorem isReal_maxRow (a : Fin 1024 → EReal) (ha : ∀ j, IsReal (a j)) : IsReal (maxRow a) := by
  have htop : maxRow a ≠ ⊤ := by
    refine ne_of_lt ?_
    unfold maxRow
    rw [Finset.fold_max_lt]
    refine ⟨bot_lt_top, fun j _ => ?_⟩
    obtain ⟨x, hx⟩ := ha j
    rw [hx]; exact EReal.coe_lt_top x
  have hbot : maxRow a ≠ ⊥ := by
    refine ne_of_gt ?_
    unfold maxRow
    rw [Finset.lt_fold_max]
    refine Or.inr ⟨0, Finset.mem_univ _, ?_⟩
    obtain ⟨x, hx⟩ := ha 0
    rw [hx]; exact EReal.bot_lt_coe x
  exact ⟨(maxRow a).toReal, (EReal.coe_toReal htop hbot).symm⟩

/-- For a row of real scores the two arrangements of an output row agree: every weight is a positive real, so is their
    sum `s`, the quotient by `s` is the product with `1/s`, and that factor goes through the sum. -/
theorem outRow_eq (a : Fin 1024 → EReal) (ha : ∀ j, IsReal (a j)) (om : Mat 1024 256) : outRowK a om = outRowR a om := by
  funext d
  obtain ⟨μ, hμ⟩ := isReal_maxRow a ha
  choose α hα using ha
  -- every weight is the exponential of a real
  have hw : ∀ j, wtsRow a j = ((Real.exp (α j - μ) : ℝ) : EReal) := by
    intro j
    unfold wtsRow
    rw [hμ, hα j, ← EReal.coe_sub]
    rfl
  -- their sum is a positive real
  have hs : (∑ j : Fin 1024, wtsRow a j) = ((∑ j : Fin 1024, Real.exp (α j - μ) : ℝ) : EReal) := by
    rw [coe_sum]
    exact Finset.sum_congr rfl fun j _ => hw j
  have hpos : 0 < ∑ j : Fin 1024, Real.exp (α j - μ) :=
    Finset.sum_pos (fun j _ => Real.exp_pos _) Finset.univ_nonempty
  unfold outRowK outRowR
  rw [hs, Ideal.div_coe hpos.ne', sum_mul_coe _ _ (by positivity)]
  refine Finset.sum_congr rfl fun j _ => ?_
  rw [Ideal.div_coe hpos.ne', mul_right_comm]

/-! ## The whole result -/

theorem result_eq (mn : Mat 10000 256) (ot : Mat 1024 256) (fx : Mat 4096 1024) (wq : Mat 256 256) (bq : Fin 256 → EReal)
    (wk : Mat 256 256) (bk : Fin 256 → EReal) (hmn : ∀ r k, IsReal (mn r k)) (hot : ∀ j k, IsReal (ot j k))
    (hwq : ∀ e k, IsReal (wq e k)) (hbq : ∀ e, IsReal (bq e)) (hwk : ∀ e k, IsReal (wk e k)) (hbk : ∀ e, IsReal (bk e))
    (hcs : ∀ j, colsum fx j ≠ 0) : resultK mn ot fx wq bq wk bk = resultR mn ot fx wq bq wk bk := by
  funext r
  unfold resultK resultR
  rw [mix_eq fx ot hcs]
  exact outRow_eq _ (isReal_scoreRow (isReal_projRow (hmn r) hwq hbq)
    (fun j => isReal_projRow (hot j) hwk hbk)) _

end Cert.Attn

end
-- ==== Proof.PreFacts.lean ====
/-
  What the precondition says of the argument arrays: every entry of the six arrays that feed the scores is a real
  number, and no column sum of the root of the Gram matrix of `fix` is zero.
-/
import proofs.«147907_g52209622450808_cont_9to1_m_767_3_alg».proof.Pre_finite_inputs
import proofs.«147907_g52209622450808_cont_9to1_m_767_3_alg».proof.Proof.Gen.Pre_finite_inputs
import proofs.«147907_g52209622450808_cont_9to1_m_767_3_alg».proof.Proof.Spec
import Idealize.ShloMosaic.PureOps.Ideal.Laws
import Idealize.ShloMosaic.Lib.ValueIdx
import Idealize.ShloMosaic.Lib.ReduceAll
import Idealize.ShloMosaic.Lib.IdealHost
import Idealize.ShloMosaic.Lib.Pipeline.Value

noncomputable section

namespace Cert.Attn

open Idealize.ShloMosaic Cert.Pre_finite_inputs

/-- The scalar shape has exactly one index. -/
instance pre_subsingleton_scalar_idx : Subsingleton S_.Idx := ⟨fun a b => funext fun d => d.elim0⟩

/-- The word `0x7F800000` denotes `+∞`. -/
theorem pre_ofBits_pos_inf : Ideal.ofBits .f32 0x7F800000#32 = (⊤ : EReal) := by
  simp [Ideal.ofBits, Ideal.ieee]

/-- `|x| < +∞` on the extended reals says that `x` is a real number. -/
theorem pre_isReal_of_abs_lt_inf (x : EReal)
    (h : Ideal.cmp .olt (max x (-x)) (Ideal.ofBits .f32 0x7F800000#32) = 1#1) : IsReal x := by
  rw [pre_ofBits_pos_inf] at h
  have h2 : max x (-x) < (⊤ : EReal) := by
    by_contra hn
    simp [Ideal.cmp, hn] at h
  induction x using EReal.rec with
  | bot => simp at h2
  | coe r => exact ⟨r, rfl⟩
  | top => simp at h2

/-- A comparison "not equal" that came out true compared two different extended reals. -/
theorem pre_ne_of_cmp_une (x y : EReal) (h : Ideal.cmp .une x y = 1#1) : x ≠ y := by
  intro hxy
  simp [Ideal.cmp, hxy] at h

/-- `jnp.all(|x| < +∞)` true: every entry of `x` is a real number. -/
theorem pre_all_isReal {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ValueIdx.ix0 = 1#1) (i : s.Idx) : IsReal (x i) :=
  pre_isReal_of_abs_lt_inf (x i) (Host.reduce_andi_all _ _ hr hu _ h i)

/-! ### The Gram matrix read at an entry -/

theorem pre_gram_lhs_0 [Facts] (i : S1024x1024.Idx) (q : dot_S1024x4096_S4096x1024_S1024x1024_1_0_0_1_n_n.contr.Idx) :
    (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch from List.not_mem_nil), dif_pos (show (0 : Fin S1024x4096.rank) ∈ dot_S1024x4096_S4096x1024_S1024x1024_1_0_0_1_n_n.lhsNonContracting from List.mem_singleton.2 rfl)]
  rfl
theorem pre_gram_lhs_1 [Facts] (i : S1024x1024.Idx) (q : dot_S1024x4096_S4096x1024_S1024x1024_1_0_0_1_n_n.contr.Idx) :
    (dot_S1024x4096_S4096x1024_S1024x1024_1_0_0_1_n_n.lhsIdx i q 1).val = (q ⟨0, Nat.one_pos⟩).val :=
  dot_S1024x4096_S4096x1024_S1024x1024_1_0_0_1_n_n.lhsIdx_val_of_single rfl i q
theorem pre_gram_rhs_0 [Facts] (i : S1024x1024.Idx) (q : dot_S1024x4096_S4096x1024_S1024x1024_1_0_0_1_n_n.contr.Idx) :
    (dot_S1024x4096_S4096x1024_S1024x1024_1_0_0_1_n_n.rhsIdx i q 0).val = (q ⟨0, Nat.one_pos⟩).val :=
  dot_S1024x4096_S4096x1024_S1024x1024_1_0_0_1_n_n.rhsIdx_val_of_single rfl i q
theorem pre_gram_rhs_1 [Facts] (i : S1024x1024.Idx) (q : dot_S1024x4096_S4096x1024_S1024x1024_1_0_0_1_n_n.contr.Idx) :
    (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch from List.not_mem_nil), dif_pos (show (1 : Fin S4096x1024.rank) ∈ dot_S1024x4096_S4096x1024_S1024x1024_1_0_0_1_n_n.rhsNonContracting from List.mem_singleton.2 rfl)]
  rfl

/-- The product of the transpose of `x` with `x`, at `(i, j)`: `∑ k, x k i · x k j`. -/
theorem pre_gram_apply [Facts] (x : FVec Ideal S4096x1024 .f32) (ht : S4096x1024.Transposes [1, 0] S1024x4096) (i j : Fin 1024) :
    Host.dotGeneral (F := Ideal) dot_S1024x4096_S4096x1024_S1024x1024_1_0_0_1_n_n none (transpose S1024x4096 [1, 0] x ht) x (ValueIdx.ix2 i j)
      = ∑ k : Fin 4096, x (ValueIdx.ix2 k i) * x (ValueIdx.ix2 k j) := by
  generalize hy : transpose S1024x4096 [1, 0] x ht = y0
  simp only [Host.dotGeneral]
  rw [Ideal.dotGeneral_apply, ← Equiv.sum_comp (ValueIdx.contrEquiv1 dot_S1024x4096_S4096x1024_S1024x1024_1_0_0_1_n_n 4096 rfl rfl).symm]
  refine Finset.sum_congr rfl fun k _ => ?_
  have hk := ValueIdx.contrEquiv1_symm_val dot_S1024x4096_S4096x1024_S1024x1024_1_0_0_1_n_n 4096 rfl rfl k
  have el : dot_S1024x4096_S4096x1024_S1024x1024_1_0_0_1_n_n.lhsIdx (ValueIdx.ix2 i j) ((ValueIdx.contrEquiv1 dot_S1024x4096_S4096x1024_S1024x1024_1_0_0_1_n_n 4096 rfl rfl).symm k) = ValueIdx.ix2 i k := funext fun a => Fin.ext (by
    match a with
    | ⟨0, _⟩ => exact pre_gram_lhs_0 _ _
    | ⟨1, _⟩ => exact (pre_gram_lhs_1 _ _).trans hk)
  have er : dot_S1024x4096_S4096x1024_S1024x1024_1_0_0_1_n_n.rhsIdx (ValueIdx.ix2 i j) ((ValueIdx.contrEquiv1 dot_S1024x4096_S4096x1024_S1024x1024_1_0_0_1_n_n 4096 rfl rfl).symm k) = ValueIdx.ix2 k j := funext fun a => Fin.ext (by
    match a with
    | ⟨0, _⟩ => exact (pre_gram_rhs_0 _ _).trans hk
    | ⟨1, _⟩ => exact pre_gram_rhs_1 _ _)
  rw [el, er, ← hy]
  exact congrArg (· * x (ValueIdx.ix2 k j)) (transpose_apply [1, 0] x ht (ValueIdx.ix2 i k) (ValueIdx.ix2 k i) (fun b => match b with
    | ⟨0, _⟩ => rfl
    | ⟨1, _⟩ => rfl))

/-- The sum over the rows of the entrywise root of a square table, from zero, at column `j`. -/
theorem pre_colsum_read (G : FVec Ideal S1024x1024 .f32) (hr : S1024x1024.ReducesTo [0] S1024) (hu : 0 < S_.numel) (j : Fin 1024) :
    Host.reduceAdd (F := Ideal) (Host.sqrt G) (constant (F := Ideal) S_ .f32 0x00000000#32) hr hu (ValueIdx.ix1 j)
      = ∑ i : Fin 1024, Ideal.sqrt (G (ValueIdx.ix2 i j)) := by
  rw [ValueIdx.hostReduceAdd_apply, Ideal.hostReduceAdd_single hr (by decide)]
  refine (congrArg (· + _) (Ideal.ofBits_zero_f32)).trans ?_
  rw [zero_add]
  refine Finset.sum_congr rfl fun k _ => ?_
  exact congrArg (fun z => Ideal.sqrt (G z)) (funext fun a => Fin.ext (by match a with | ⟨0, _⟩ => rfl | ⟨1, _⟩ => rfl))

/-- The column sum of the root of the Gram matrix, as the sum of roots of sums. -/
theorem pre_colsum_eq (x : FVec Ideal S4096x1024 .f32) (j : Fin 1024) :
    colsum (mat x) j = ∑ i : Fin 1024, Ideal.sqrt (∑ k : Fin 4096, x (ValueIdx.ix2 k i) * x (ValueIdx.ix2 k j)) := rfl

/-- `jnp.all(colsum ≠ 0)` true: no column sum of the root of the Gram matrix is zero. -/
theorem pre_colsum_ne_zero [Facts] (x : FVec Ideal S4096x1024 .f32) (ht : S4096x1024.Transposes [1, 0] S1024x4096)
    (hr : S1024x1024.ReducesTo [0] S1024) (hu : 0 < S_.numel)
    (hb1 : S1024.BroadcastsInDim S1x1024 (![1] : Fin 1 → Fin S1x1024.rank))
    (hb0 : S_.BroadcastsInDim S1x1024 (![] : Fin 0 → Fin S1x1024.rank)) (hr2 : S1x1024.ReducesTo [0, 1] S_)
    (h : Host.reduce IntOp.andi
          (cmpf .une
            (broadcastInDim S1x1024 ![1] hb1
              (Host.reduceAdd (F := Ideal) (Host.sqrt (Host.dotGeneral (F := Ideal) dot_S1024x4096_S4096x1024_S1024x1024_1_0_0_1_n_n none (transpose S1024x4096 [1, 0] x ht) x))
                (constant (F := Ideal) S_ .f32 0x00000000#32) hr hu))
            (broadcastInDim S1x1024 ![] hb0 (constant (F := Ideal) S_ .f32 0x00000000#32)))
          (constantI S_ 1 1#1) hr2 hu ValueIdx.ix0 = 1#1) (j : Fin 1024) : colsum (mat x) j ≠ 0 := by
  generalize hV : Host.reduceAdd (F := Ideal) (Host.sqrt (Host.dotGeneral (F := Ideal) dot_S1024x4096_S4096x1024_S1024x1024_1_0_0_1_n_n none (transpose S1024x4096 [1, 0] x ht) x))
      (constant (F := Ideal) S_ .f32 0x00000000#32) hr hu = V at h
  have e := Host.reduce_andi_all _ _ hr2 hu _ h (ValueIdx.ix2 (0 : Fin 1) j)
  have eA : broadcastInDim S1x1024 ![1] hb1 V (ValueIdx.ix2 (0 : Fin 1) j) = V (ValueIdx.ix1 j) :=
    broadcastInDim_apply _ hb1 V _ _ (fun a => match a with
      | ⟨0, _⟩ => by show j.val = if (1024 : Nat) = 1 then 0 else j.val; rw [if_neg (by decide)])
  have eB : broadcastInDim S1x1024 ![] hb0 (constant (F := Ideal) S_ .f32 0x00000000#32) (ValueIdx.ix2 (0 : Fin 1) j) = (0 : EReal) :=
    (ValueIdx.broadcastInDim_scalar_apply hb0 _ _).trans Ideal.ofBits_zero_f32
  have e' : Ideal.cmp .une (broadcastInDim S1x1024 ![1] hb1 V (ValueIdx.ix2 (0 : Fin 1) j))
      (broadcastInDim S1x1024 ![] hb0 (constant (F := Ideal) S_ .f32 0x00000000#32) (ValueIdx.ix2 (0 : Fin 1) j)) = 1#1 := e
  rw [eA, eB, ← hV, pre_colsum_read] at e'
  rw [pre_colsum_eq]
  refine fun h0 => pre_ne_of_cmp_une _ _ e' (Eq.trans ?_ h0)
  refine Finset.sum_congr rfl fun i _ => ?_
  rw [pre_gram_apply]

theorem pre_facts [Cert.Pre_finite_inputs.Facts]
    (a0 : FVec Ideal S10000x256 .f32) (a1 : FVec Ideal S1024x256 .f32) (a2 : FVec Ideal S4096x1024 .f32)
    (a3 : FVec Ideal S256x256 .f32) (a4 : FVec Ideal S256 .f32) (a5 : FVec Ideal S256x256 .f32) (a6 : FVec Ideal S256 .f32)
    (h : Cert.Pre_finite_inputs.fn (F := Ideal) a0 a1 a2 a3 a4 a5 a6 = fun _ => 1#1) :
    (∀ i, IsReal (a0 i)) ∧ (∀ i, IsReal (a1 i)) ∧ (∀ i, IsReal (a3 i)) ∧ (∀ i, IsReal (a4 i)) ∧ (∀ i, IsReal (a5 i))
      ∧ (∀ i, IsReal (a6 i)) ∧ (∀ j : Fin 1024, colsum (mat a2) j ≠ 0) := by
  have h0 := congrFun h ValueIdx.ix0
  dsimp only [fn, fn_part1, fn_part2, andi] at h0
  simp only [IntOp.andi_eq_one] at h0
  obtain ⟨⟨⟨⟨⟨⟨⟨h_a0, h_a1⟩, _⟩, h_a3⟩, h_a4⟩, h_a5⟩, h_a6⟩, h_c⟩ := h0
  exact ⟨pre_all_isReal a0 _ _ _ h_a0, pre_all_isReal a1 _ _ _ h_a1, pre_all_isReal a3 _ _ _ h_a3, pre_all_isReal a4 _ _ _ h_a4,
    pre_all_isReal a5 _ _ _ h_a5, pre_all_isReal a6 _ _ _ h_a6, pre_colsum_ne_zero a2 _ _ _ _ _ _ h_c⟩

end Cert.Attn

end
-- ==== Proof.RefValue.lean ====
/-
  The reference's result, read at an index, is the second arrangement of the specification.

  The reference is read stage by stage, each stage at explicit coordinates: the projected query row and the projected
  keys (a product with a transposed weight matrix plus a bias row), the scaled scores (the quotient by 16 is the product
  with 1/16), the row maximum (a fold of max from -∞, then once more a maximum with -∞), the weights exp (a j - max a),
  their sum (from 0), the normalised weights; on the other side the Gram matrix, its entrywise root, the column sums
  (from 0), the root divided by its column sum, and the mixed table; the result is the product of the normalised
  weights with the mixed table.
-/
import proofs.«147907_g52209622450808_cont_9to1_m_767_3_alg».proof.Proof.Gen.ReferenceIdeal.Read
import proofs.«147907_g52209622450808_cont_9to1_m_767_3_alg».proof.Proof.Spec
import proofs.«147907_g52209622450808_cont_9to1_m_767_3_alg».proof.Proof.Consts
import Idealize.ShloMosaic.PureOps.Ideal.Laws
import Idealize.ShloMosaic.Lib.ValueIdx
import Idealize.ShloMosaic.Lib.Pipeline.Value

noncomputable section

namespace Cert.Attn

open Idealize.ShloMosaic Cert.ReferenceIdeal

section Stages

variable (x0 : (⟨S10000x256, .f32⟩ : BufTy).Contents (Elt Ideal)) (x1 : (⟨S1024x256, .f32⟩ : BufTy).Contents (Elt Ideal))
  (x2 : (⟨S4096x1024, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-- Row r of the projected queries: (main Wqᵀ + bq) r e = ∑ k, main r k · Wq e k + bq e. -/
theorem refv_query (r : Fin 10000) (e : Fin 256) :
    Read.val_main_v4 (F := Ideal) x0 x3 x4 (ValueIdx.ix2 r e) = projRow (mat x0 r) (mat x3) (row x4) e := by
  have e1 : ∀ k : Fin 256, Read.lidx_main_v1 (ValueIdx.ix2 r e) k = ValueIdx.ix2 r k := fun k =>
    funext fun a => Fin.ext (by match a with | ⟨0, _⟩ => rfl | ⟨1, _⟩ => rfl)
  have e2 : ∀ k : Fin 256, Read.idx_main_v0 (Read.ridx_main_v1 (ValueIdx.ix2 r e) k) = ValueIdx.ix2 e k := fun k =>
    funext fun a => Fin.ext (by match a with | ⟨0, _⟩ => rfl | ⟨1, _⟩ => rfl)
  have e3 : Read.idx_main_v2 (Read.idx_main_v3 (ValueIdx.ix2 r e)) = ValueIdx.ix1 e :=
    funext fun a => Fin.ext (by match a with | ⟨0, _⟩ => rfl)
  rw [Read.val_main_v4_apply, Read.val_main_v1_apply, Read.val_main_v3_apply, Read.val_main_v2_apply, e3]
  simp only [Read.val_main_v0_apply, e1, e2, Ideal.addf_def]
  rfl

/-- The projected keys: (other Wkᵀ + bk) j e = ∑ k, other j k · Wk e k + bk e. -/
theorem refv_keys (j : Fin 1024) (e : Fin 256) :
    Read.val_main_v9 (F := Ideal) x1 x5 x6 (ValueIdx.ix2 j e) = keys (mat x1) (mat x5) (row x6) j e := by
  have e1 : ∀ k : Fin 256, Read.lidx_main_v6 (ValueIdx.ix2 j e) k = ValueIdx.ix2 j k := fun k =>
    funext fun a => Fin.ext (by match a with | ⟨0, _⟩ => rfl | ⟨1, _⟩ => rfl)
  have e2 : ∀ k : Fin 256, Read.idx_main_v5 (Read.ridx_main_v6 (ValueIdx.ix2 j e) k) = ValueIdx.ix2 e k := fun k =>
    funext fun a => Fin.ext (by match a with | ⟨0, _⟩ => rfl | ⟨1, _⟩ => rfl)
  have e3 : Read.idx_main_v7 (Read.idx_main_v8 (ValueIdx.ix2 j e)) = ValueIdx.ix1 e :=
    funext fun a => Fin.ext (by match a with | ⟨0, _⟩ => rfl)
  rw [Read.val_main_v9_apply, Read.val_main_v6_apply, Read.val_main_v8_apply, Read.val_main_v7_apply, e3]
  simp only [Read.val_main_v5_apply, e1, e2, Ideal.addf_def]
  rfl

/-- The scaled scores: the dot product of query row r with key row j, divided by 16, is that product times 1/16. -/
theorem refv_score (r : Fin 10000) (j : Fin 1024) :
    Read.val_main_v13 (F := Ideal) x0 x1 x3 x4 x5 x6 (ValueIdx.ix2 r j)
      = scoreRow (projRow (mat x0 r) (mat x3) (row x4)) (keys (mat x1) (mat x5) (row x6)) j := by
  have e1 : ∀ k : Fin 256, Read.lidx_main_v11 (ValueIdx.ix2 r j) k = ValueIdx.ix2 r k := fun k =>
    funext fun a => Fin.ext (by match a with | ⟨0, _⟩ => rfl | ⟨1, _⟩ => rfl)
  have e2 : ∀ k : Fin 256, Read.idx_main_v10 (Read.ridx_main_v11 (ValueIdx.ix2 r j) k) = ValueIdx.ix2 j k := fun k =>
    funext fun a => Fin.ext (by match a with | ⟨0, _⟩ => rfl | ⟨1, _⟩ => rfl)
  rw [Read.val_main_v13_apply, Read.val_main_v11_apply, Read.val_main_v12_apply, Read.val_main_cst_apply,
    Ideal.hostDivf_def, Ideal.ofBits_def, div_sixteen]
  simp only [Read.val_main_v10_apply, e1, e2, refv_query, refv_keys]
  rfl

/-- In the score table, the index over row r whose column is k is (r, k). -/
theorem refv_lift_row (h : S10000x1024.Reduces [1] S10000) (r : Fin 10000) (k : Fin (S10000x1024.size 1)) :
    h.lift (ValueIdx.ix1 r) k = ValueIdx.ix2 r (⟨k.val, k.isLt⟩ : Fin 1024) := by
  funext c
  apply Fin.ext
  match c with
  | ⟨0, _⟩ => rfl
  | ⟨1, _⟩ => rfl

/-- The row maximum: the fold of max from -∞ over row r of the scores; one more maximum with -∞ changes nothing. -/
theorem refv_max (r : Fin 10000) :
    Read.val_main_v16 (F := Ideal) x0 x1 x3 x4 x5 x6 (ValueIdx.ix1 r)
      = maxRow (scoreRow (projRow (mat x0 r) (mat x3) (row x4)) (keys (mat x1) (mat x5) (row x6))) := by
  have h : S10000x1024.Reduces [1] S10000 := by decide
  have hf : (Read.val_main_v13 (F := Ideal) x0 x1 x3 x4 x5 x6 ∘ h.lift (ValueIdx.ix1 r))
      = fun k => scoreRow (projRow (mat x0 r) (mat x3) (row x4)) (keys (mat x1) (mat x5) (row x6)) ⟨k.val, k.isLt⟩ :=
    funext fun k => (congrArg (Read.val_main_v13 (F := Ideal) x0 x1 x3 x4 x5 x6) (refv_lift_row h r k)).trans
      (refv_score x0 x1 x3 x4 x5 x6 r _)
  rw [Read.val_main_v16_apply, Read.val_main_v15_apply, Read.val_main_cst_1_apply]
  unfold Read.val_main_v14
  rw [Host.reduce_eq_fold_single (FloatOps.maximumf (F := Ideal) (φ := .f32)) _ _ _ h _ (ValueIdx.ix1 r),
    Read.val_main_cst_0_apply, hf, Ideal.ofBits_def, ofBits_neg_inf]
  show max (⊥ : EReal) ((Finset.univ : Finset (Fin 1024)).fold max ⊥
    (scoreRow (projRow (mat x0 r) (mat x3) (row x4)) (keys (mat x1) (mat x5) (row x6)))) = _
  rw [max_bot_left]
  rfl

/-- The unnormalised weights exp (a j - max a) of row r. -/
theorem refv_wts (r : Fin 10000) (j : Fin 1024) :
    Read.val_main_v20 (F := Ideal) x0 x1 x3 x4 x5 x6 (ValueIdx.ix2 r j)
      = wtsRow (scoreRow (projRow (mat x0 r) (mat x3) (row x4)) (keys (mat x1) (mat x5) (row x6))) j := by
  have e1 : Read.idx_main_v17 (Read.idx_main_v18 (ValueIdx.ix2 r j)) = ValueIdx.ix1 r :=
    funext fun a => Fin.ext (by match a with | ⟨0, _⟩ => rfl)
  rw [Read.val_main_v20_apply, Read.val_main_v19_apply, Read.val_main_v18_apply, Read.val_main_v17_apply, e1,
    refv_score, refv_max, Ideal.hostUnary_exp_def, Ideal.subf_def]
  rfl

/-- The sum of the weights of row r, from 0. -/
theorem refv_wsum (r : Fin 10000) :
    Read.val_main_v21 (F := Ideal) x0 x1 x3 x4 x5 x6 (ValueIdx.ix1 r)
      = ∑ j : Fin 1024, wtsRow (scoreRow (projRow (mat x0 r) (mat x3) (row x4)) (keys (mat x1) (mat x5) (row x6))) j := by
  have e1 : ∀ k : Fin 1024, Read.idx_main_v21 (ValueIdx.ix1 r) k = ValueIdx.ix2 r k := fun k =>
    funext fun a => Fin.ext (by match a with | ⟨0, _⟩ => rfl | ⟨1, _⟩ => rfl)
  rw [Read.val_main_v21_apply, Read.val_main_cst_2_apply, Ideal.ofBits_def, Ideal.ofBits_zero_f32, zero_add]
  exact Finset.sum_congr rfl fun k _ => by rw [e1, refv_wts]

/-- The normalised weights: every weight divided by the sum of the weights of its row. -/
theorem refv_soft (r : Fin 10000) (j : Fin 1024) :
    Read.val_main_v24 (F := Ideal) x0 x1 x3 x4 x5 x6 (ValueIdx.ix2 r j)
      = Ideal.div (wtsRow (scoreRow (projRow (mat x0 r) (mat x3) (row x4)) (keys (mat x1) (mat x5) (row x6))) j)
          (∑ j' : Fin 1024, wtsRow (scoreRow (projRow (mat x0 r) (mat x3) (row x4)) (keys (mat x1) (mat x5) (row x6))) j') := by
  have e1 : Read.idx_main_v22 (Read.idx_main_v23 (ValueIdx.ix2 r j)) = ValueIdx.ix1 r :=
    funext fun a => Fin.ext (by match a with | ⟨0, _⟩ => rfl)
  rw [Read.val_main_v24_apply, Read.val_main_v23_apply, Read.val_main_v22_apply, e1, refv_wts, refv_wsum,
    Ideal.hostDivf_def]

/-- The entrywise root of the Gram matrix fixᵀ fix. -/
theorem refv_root (i j : Fin 1024) :
    Read.val_main_v27 (F := Ideal) x2 (ValueIdx.ix2 i j) = root (mat x2) i j := by
  have e1 : ∀ k : Fin 4096, Read.idx_main_v25 (Read.lidx_main_v26 (ValueIdx.ix2 i j) k) = ValueIdx.ix2 k i := fun k =>
    funext fun a => Fin.ext (by match a with | ⟨0, _⟩ => rfl | ⟨1, _⟩ => rfl)
  have e2 : ∀ k : Fin 4096, Read.ridx_main_v26 (ValueIdx.ix2 i j) k = ValueIdx.ix2 k j := fun k =>
    funext fun a => Fin.ext (by match a with | ⟨0, _⟩ => rfl | ⟨1, _⟩ => rfl)
  rw [Read.val_main_v27_apply, Read.val_main_v26_apply, Ideal.hostUnary_sqrt_def]
  simp only [Read.val_main_v25_apply, e1, e2]
  rfl

/-- The column sums of the root, from 0. -/
theorem refv_colsum (j : Fin 1024) :
    Read.val_main_v28 (F := Ideal) x2 (ValueIdx.ix1 j) = colsum (mat x2) j := by
  have e1 : ∀ k : Fin 1024, Read.idx_main_v28 (ValueIdx.ix1 j) k = ValueIdx.ix2 k j := fun k =>
    funext fun a => Fin.ext (by match a with | ⟨0, _⟩ => rfl | ⟨1, _⟩ => rfl)
  rw [Read.val_main_v28_apply, Read.val_main_cst_3_apply, Ideal.ofBits_def, Ideal.ofBits_zero_f32, zero_add]
  show _ = ∑ i : Fin 1024, root (mat x2) i j
  exact Finset.sum_congr rfl fun k _ => by rw [e1, refv_root]

/-- The root divided by the sum of its column. -/
theorem refv_mixw (i j : Fin 1024) :
    Read.val_main_v31 (F := Ideal) x2 (ValueIdx.ix2 i j) = Ideal.div (root (mat x2) i j) (colsum (mat x2) j) := by
  have e1 : Read.idx_main_v29 (Read.idx_main_v30 (ValueIdx.ix2 i j)) = ValueIdx.ix1 j :=
    funext fun a => Fin.ext (by match a with | ⟨0, _⟩ => rfl)
  rw [Read.val_main_v31_apply, Read.val_main_v30_apply, Read.val_main_v29_apply, e1, refv_root, refv_colsum,
    Ideal.hostDivf_def]

/-- The mixed table, the root divided by the column sum first. -/
theorem refv_mix (i : Fin 1024) (d : Fin 256) :
    Read.val_main_v32 (F := Ideal) x1 x2 (ValueIdx.ix2 i d) = mixR (mat x2) (mat x1) i d := by
  have e1 : ∀ k : Fin 1024, Read.lidx_main_v32 (ValueIdx.ix2 i d) k = ValueIdx.ix2 i k := fun k =>
    funext fun a => Fin.ext (by match a with | ⟨0, _⟩ => rfl | ⟨1, _⟩ => rfl)
  have e2 : ∀ k : Fin 1024, Read.ridx_main_v32 (ValueIdx.ix2 i d) k = ValueIdx.ix2 k d := fun k =>
    funext fun a => Fin.ext (by match a with | ⟨0, _⟩ => rfl | ⟨1, _⟩ => rfl)
  rw [Read.val_main_v32_apply]
  simp only [e1, e2, refv_mixw]
  rfl

end Stages

/-- The reference's result at (r, d): the normalised weights of row r times column d of the mixed table. -/
theorem ref_value (x0 : (⟨S10000x256, .f32⟩ : BufTy).Contents (Elt Ideal)) (x1 : (⟨S1024x256, .f32⟩ : BufTy).Contents (Elt Ideal))
    (x2 : (⟨S4096x1024, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (r : Fin 10000) (d : Fin 256) :
    Cert.ReferenceIdeal.Read.val_main_v33 (F := Ideal) x0 x1 x2 x3 x4 x5 x6 (ValueIdx.ix2 r d)
      = resultR (mat x0) (mat x1) (mat x2) (mat x3) (row x4) (mat x5) (row x6) r d := by
  have e1 : ∀ k : Fin 1024, Read.lidx_main_v33 (ValueIdx.ix2 r d) k = ValueIdx.ix2 r k := fun k =>
    funext fun a => Fin.ext (by match a with | ⟨0, _⟩ => rfl | ⟨1, _⟩ => rfl)
  have e2 : ∀ k : Fin 1024, Read.ridx_main_v33 (ValueIdx.ix2 r d) k = ValueIdx.ix2 k d := fun k =>
    funext fun a => Fin.ext (by match a with | ⟨0, _⟩ => rfl | ⟨1, _⟩ => rfl)
  rw [Read.val_main_v33_apply]
  simp only [e1, e2, refv_soft, refv_mix]
  rfl

end Cert.Attn

end
-- ==== Proof.Pay0.lean ====
/-
  The first kernel's two stored values, read at an index: the mixed table in the first arrangement, and the projected keys.
-/
import proofs.«147907_g52209622450808_cont_9to1_m_767_3_alg».proof.Proof.Gen.KernelIdeal.Skeleton
import proofs.«147907_g52209622450808_cont_9to1_m_767_3_alg».proof.Proof.Spec
import proofs.«147907_g52209622450808_cont_9to1_m_767_3_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.Attn

open Idealize.ShloMosaic Cert.KernelIdeal

/-! ## The pointwise square root at an index -/

/-- The square root of an array of extended reals, read at an index, is the square root of the entry. -/
theorem sqrt_apply {s : Shape} {φ : FTy} (a : FVec Ideal s φ) (i : s.Idx) : sqrt a i = Ideal.sqrt (a i) := rfl

/-- Narrowing an array of extended reals to the shorter format leaves every entry as it is. -/
theorem truncf_bf16_apply {s : Shape} (a : FVec Ideal s .f32) (h : FTy.bits .bf16 < FTy.bits .f32) (i : s.Idx) :
    (truncf .bf16 a h : FVec Ideal s .bf16) i = a i := rfl

/-! ## The column forms of the layout operations -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The sum down the columns -/

/-- The sum over axis 0 of a `[1024, 1024]` array, read at `j`, is the sum of column `j`. -/
theorem colsum_apply (src : FVec Ideal S1024x1024 .f32) (hφ : FKind.Formats .f32)
    (hacc : (0x00000000#32 : BitVec 32) = 0x00000000#32) (j : Fin 1024) :
    multiReduction (F := Ideal) .add [0] S1024 src 0x00000000#32 Facts₀.reduces_S1024x1024_S1024 hφ hacc (ValueIdx.ix1 j)
      = ∑ k : Fin 1024, src (ValueIdx.ix2 k j) := by
  refine (Ideal.multiReduction_add_single src 0x00000000#32 Facts₀.reduces_S1024x1024_S1024 hφ hacc (ValueIdx.ix1 j)).trans ?_
  refine Finset.sum_congr rfl fun k _ => congrArg src ?_
  funext a
  match a with
  | ⟨0, _⟩ => rfl
  | ⟨1, _⟩ => rfl

/-! ## The keys' product: `other` times `Wk`, contracting axis 1 of both -/

theorem lhs_keys_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_keys_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_keys_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_keys_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- The keys' product at `(j, e)`: row `j` of the left operand against row `e` of the right. -/
theorem keys_matmul_apply (x : FVec Ideal S1024x256 .bf16) (w : FVec Ideal S256x256 .bf16) (j : Fin 1024) (e : Fin 256) :
    matmul dot_S1024x256_S256x256_S1024x256_1_1_0_0_n_n none x w (constant (F := Ideal) S1024x256 .f32 0x00000000#32) (ValueIdx.ix2 j e)
      = ∑ k : Fin 256, x (ValueIdx.ix2 j k) * w (ValueIdx.ix2 e k) := by
  refine (Ideal.matmul_constant_zero_apply dot_S1024x256_S256x256_S1024x256_1_1_0_0_n_n none x w (ValueIdx.ix2 j e)).trans ?_
  rw [← Equiv.sum_comp (ValueIdx.contrEquiv1 dot_S1024x256_S256x256_S1024x256_1_1_0_0_n_n 256 rfl rfl).symm]
  refine Finset.sum_congr rfl fun k _ => ?_
  have hk := ValueIdx.contrEquiv1_symm_val dot_S1024x256_S256x256_S1024x256_1_1_0_0_n_n 256 rfl rfl k
  have el : dot_S1024x256_S256x256_S1024x256_1_1_0_0_n_n.lhsIdx (ValueIdx.ix2 j e) ((ValueIdx.contrEquiv1 dot_S1024x256_S256x256_S1024x256_1_1_0_0_n_n 256 rfl rfl).symm k) = ValueIdx.ix2 j k := funext fun a => Fin.ext (by
    match a with
    | ⟨0, _⟩ => exact lhs_keys_0 _ _
    | ⟨1, _⟩ => exact (lhs_keys_1 _ _).trans hk)
  have er : dot_S1024x256_S256x256_S1024x256_1_1_0_0_n_n.rhsIdx (ValueIdx.ix2 j e) ((ValueIdx.contrEquiv1 dot_S1024x256_S256x256_S1024x256_1_1_0_0_n_n 256 rfl rfl).symm k) = ValueIdx.ix2 e k := funext fun a => Fin.ext (by
    match a with
    | ⟨0, _⟩ => exact rhs_keys_0 _ _
    | ⟨1, _⟩ => exact (rhs_keys_1 _ _).trans hk)
  rw [el, er]

/-! ## The Gram product: `fix` against itself, contracting axis 0 of both -/

theorem lhs_gram_0 (i : S1024x1024.Idx) (q : dot_S4096x1024_S4096x1024_S1024x1024_0_0_1_1_n_n.contr.Idx) :
    (dot_S4096x1024_S4096x1024_S1024x1024_0_0_1_1_n_n.lhsIdx i q 0).val = (q ⟨0, by decide⟩).val :=
  dot_S4096x1024_S4096x1024_S1024x1024_0_0_1_1_n_n.lhsIdx_val_of_single rfl i q
theorem lhs_gram_1 (i : S1024x1024.Idx) (q : dot_S4096x1024_S4096x1024_S1024x1024_0_0_1_1_n_n.contr.Idx) :
    (dot_S4096x1024_S4096x1024_S1024x1024_0_0_1_1_n_n.lhsIdx i q 1).val = (i 0).val := by
  unfold DotDims.lhsIdx
  rw [dif_neg (show ¬(1 : Fin S4096x1024.rank) ∈ dot_S4096x1024_S4096x1024_S1024x1024_0_0_1_1_n_n.lhsBatch by decide), dif_pos (show (1 : Fin S4096x1024.rank) ∈ dot_S4096x1024_S4096x1024_S1024x1024_0_0_1_1_n_n.lhsNonContracting by decide)]
  rfl
theorem rhs_gram_0 (i : S1024x1024.Idx) (q : dot_S4096x1024_S4096x1024_S1024x1024_0_0_1_1_n_n.contr.Idx) :
    (dot_S4096x1024_S4096x1024_S1024x1024_0_0_1_1_n_n.rhsIdx i q 0).val = (q ⟨0, by decide⟩).val :=
  dot_S4096x1024_S4096x1024_S1024x1024_0_0_1_1_n_n.rhsIdx_val_of_single rfl i q
theorem rhs_gram_1 (i : S1024x1024.Idx) (q : dot_S4096x1024_S4096x1024_S1024x1024_0_0_1_1_n_n.contr.Idx) :
    (dot_S4096x1024_S4096x1024_S1024x1024_0_0_1_1_n_n.rhsIdx i q 1).val = (i 1).val := by
  unfold DotDims.rhsIdx
  rw [dif_neg (show ¬(1 : Fin S4096x1024.rank) ∈ dot_S4096x1024_S4096x1024_S1024x1024_0_0_1_1_n_n.rhsBatch by decide), dif_pos (show (1 : Fin S4096x1024.rank) ∈ dot_S4096x1024_S4096x1024_S1024x1024_0_0_1_1_n_n.rhsNonContracting by decide)]
  rfl

/-- The Gram product at `(a, b)`: column `a` of the left operand against column `b` of the right. -/
theorem gram_matmul_apply (x y : FVec Ideal S4096x1024 .bf16) (a b : Fin 1024) :
    matmul dot_S4096x1024_S4096x1024_S1024x1024_0_0_1_1_n_n none x y (constant (F := Ideal) S1024x1024 .f32 0x00000000#32) (ValueIdx.ix2 a b)
      = ∑ k : Fin 4096, x (ValueIdx.ix2 k a) * y (ValueIdx.ix2 k b) := by
  refine (Ideal.matmul_constant_zero_apply dot_S4096x1024_S4096x1024_S1024x1024_0_0_1_1_n_n none x y (ValueIdx.ix2 a b)).trans ?_
  rw [← Equiv.sum_comp (ValueIdx.contrEquiv1 dot_S4096x1024_S4096x1024_S1024x1024_0_0_1_1_n_n 4096 rfl rfl).symm]
  refine Finset.sum_congr rfl fun k _ => ?_
  have hk := ValueIdx.contrEquiv1_symm_val dot_S4096x1024_S4096x1024_S1024x1024_0_0_1_1_n_n 4096 rfl rfl k
  have el : dot_S4096x1024_S4096x1024_S1024x1024_0_0_1_1_n_n.lhsIdx (ValueIdx.ix2 a b) ((ValueIdx.contrEquiv1 dot_S4096x1024_S4096x1024_S1024x1024_0_0_1_1_n_n 4096 rfl rfl).symm k) = ValueIdx.ix2 k a := funext fun c => Fin.ext (by
    match c with
    | ⟨0, _⟩ => exact (lhs_gram_0 _ _).trans hk
    | ⟨1, _⟩ => exact lhs_gram_1 _ _)
  have er : dot_S4096x1024_S4096x1024_S1024x1024_0_0_1_1_n_n.rhsIdx (ValueIdx.ix2 a b) ((ValueIdx.contrEquiv1 dot_S4096x1024_S4096x1024_S1024x1024_0_0_1_1_n_n 4096 rfl rfl).symm k) = ValueIdx.ix2 k b := funext fun c => Fin.ext (by
    match c with
    | ⟨0, _⟩ => exact (rhs_gram_0 _ _).trans hk
    | ⟨1, _⟩ => exact rhs_gram_1 _ _)
  rw [el, er]

/-! ## The mixing product: the root against the divided table, contracting axis 1 with axis 0 -/

theorem lhs_mix_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mix_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mix_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mix_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The mixing product at `(i, d)`: row `i` of the left operand against column `d` of the right. -/
theorem mix_matmul_apply (x : FVec Ideal S1024x1024 .bf16) (y : FVec Ideal S1024x256 .bf16) (i : Fin 1024) (d : Fin 256) :
    matmul dot_S1024x1024_S1024x256_S1024x256_1_0_0_1_n_n none x y (constant (F := Ideal) S1024x256 .f32 0x00000000#32) (ValueIdx.ix2 i d)
      = ∑ j : Fin 1024, x (ValueIdx.ix2 i j) * y (ValueIdx.ix2 j d) := by
  refine (Ideal.matmul_constant_zero_apply dot_S1024x1024_S1024x256_S1024x256_1_0_0_1_n_n none x y (ValueIdx.ix2 i d)).trans ?_
  rw [← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ValueIdx.ix2 i d) ((ValueIdx.contrEquiv1 dot_S1024x1024_S1024x256_S1024x256_1_0_0_1_n_n 1024 rfl rfl).symm k) = ValueIdx.ix2 i k := funext fun c => Fin.ext (by
    match c with
    | ⟨0, _⟩ => exact lhs_mix_0 _ _
    | ⟨1, _⟩ => exact (lhs_mix_1 _ _).trans hk)
  have er : dot_S1024x1024_S1024x256_S1024x256_1_0_0_1_n_n.rhsIdx (ValueIdx.ix2 i d) ((ValueIdx.contrEquiv1 dot_S1024x1024_S1024x256_S1024x256_1_0_0_1_n_n 1024 rfl rfl).symm k) = ValueIdx.ix2 k d := funext fun c => Fin.ext (by
    match c with
    | ⟨0, _⟩ => exact (rhs_mix_0 _ _).trans hk
    | ⟨1, _⟩ => exact rhs_mix_1 _ _)
  rw [el, er]

/-! ## The two stored values -/

/-- The divisor array of the first stored value, read at `(j, d)`: the sum of column `j` of the root. -/
theorem divisor_apply (v4 : FVec Ideal S1024x1024 .f32) (hφ : FKind.Formats .f32)
    (hacc : (0x00000000#32 : BitVec 32) = 0x00000000#32) (j : Fin 1024) (d : Fin 256) :
    broadcastTo S1024x256
        (shapeCast S1024x1 (multiReduction (F := Ideal) .add [0] S1024 v4 0x00000000#32 Facts₀.reduces_S1024x1024_S1024 hφ hacc)
          Facts₀.shapeCasts_S1024_S1024x1)
        Facts₀.broadcasts_S1024x1_S1024x256 (ValueIdx.ix2 j d)
      = ∑ k : Fin 1024, v4 (ValueIdx.ix2 k j) :=
  (broadcastTo_a1_ab_apply _ Facts₀.broadcasts_S1024x1_S1024x256 j d).trans
    ((shapeCast_a_a1_apply _ Facts₀.shapeCasts_S1024_S1024x1 j 0).trans (colsum_apply v4 hφ hacc j))

theorem pay_mix (v0 : Vec Ideal S4096x1024 .f32) (v7 : Vec Ideal S1024x256 .f32) (i : Fin 1024) (d : Fin 256) :
    Cert.KernelIdeal.Gen.k0_pay1 (F := Ideal) v0 v7 (ValueIdx.ix2 i d) = mixK (mat v0) (mat v7) i d := by
  unfold Cert.KernelIdeal.Gen.k0_pay1
  refine (mix_matmul_apply _ _ i d).trans ?_
  unfold mixK
  refine Finset.sum_congr rfl fun j _ => ?_
  refine congrArg₂ (· * ·) ?_ ?_
  · refine (truncf_bf16_apply _ _ _).trans ((sqrt_apply _ _).trans ?_)
    exact congrArg Ideal.sqrt (gram_matmul_apply _ _ i j)
  · refine (truncf_bf16_apply _ _ _).trans ((ValueIdx.divf_apply _ _ _).trans ?_)
    refine congrArg (Ideal.div (v7 (ValueIdx.ix2 j d))) ?_
    refine (divisor_apply _ _ _ j d).trans ?_
    unfold colsum
    refine Finset.sum_congr rfl fun k _ => ?_
    exact (sqrt_apply _ _).trans (congrArg Ideal.sqrt (gram_matmul_apply _ _ k j))

theorem pay_keys (v7 : Vec Ideal S1024x256 .f32) (v14 : Vec Ideal S256x256 .f32) (v18 : Vec Ideal S1x256 .f32)
    (j : Fin 1024) (e : Fin 256) :
    Cert.KernelIdeal.Gen.k0_pay2 (F := Ideal) v7 v14 v18 (ValueIdx.ix2 j e)
      = keys (mat v7) (mat v14) (fun e' => v18 (ValueIdx.ix2 0 e')) j e := by
  unfold Cert.KernelIdeal.Gen.k0_pay2
  refine (ValueIdx.addf_apply _ _ _).trans ?_
  unfold keys projRow
  refine congrArg₂ (· + ·) ?_ ?_
  · exact keys_matmul_apply _ _ j e
  · refine (ValueIdx.broadcastTo_1b_ab_apply _ Facts₀.broadcasts_S1x256_S1024x256 j e).trans ?_
    rw [shapeCast_self]

end Cert.Attn

end
-- ==== Proof.Pay1.lean ====
/-
  The second kernel's stored value, read at an index: one output row in the first arrangement, from the block's row of
  `main`, the query weights and bias, the keys and the mixed table.
-/
import proofs.«147907_g52209622450808_cont_9to1_m_767_3_alg».proof.Proof.Gen.KernelIdeal.Skeleton
import proofs.«147907_g52209622450808_cont_9to1_m_767_3_alg».proof.Proof.Spec
import proofs.«147907_g52209622450808_cont_9to1_m_767_3_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.Attn

open Idealize.ShloMosaic Cert.KernelIdeal

/-! ## The column forms of a cast and a broadcast -/

/-- An `[a]` array cast to `[a, 1]` reads, at `(i, u)`, the operand at `i`, whatever the unit coordinate `u`. -/
theorem Pay1.shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem Pay1.broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-! ## The three products, read at an index -/

theorem Pay1.lhsQ_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem Pay1.lhsQ_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem Pay1.rhsQ_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem Pay1.rhsQ_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q

/-- A block's rows times the query weights, contracting the second axis of both: at `(p, e)` the sum over `k` of
    `x p k · w e k`. -/
theorem Pay1.matmulQ_apply (x : FVec Ideal S2000x256 .bf16) (w : FVec Ideal S256x256 .bf16) (p : Fin 2000) (e : Fin 256) :
    matmul dot_S2000x256_S256x256_S2000x256_1_1_0_0_n_n none x w (constant (F := Ideal) S2000x256 .f32 0x00000000#32) (ValueIdx.ix2 p e)
      = ∑ k : Fin 256, x (ValueIdx.ix2 p k) * w (ValueIdx.ix2 e k) := by
  refine (Ideal.matmul_constant_zero_apply dot_S2000x256_S256x256_S2000x256_1_1_0_0_n_n none x w (ValueIdx.ix2 p e)).trans ?_
  rw [← Equiv.sum_comp (ValueIdx.contrEquiv1 dot_S2000x256_S256x256_S2000x256_1_1_0_0_n_n 256 rfl rfl).symm]
  refine Finset.sum_congr rfl fun k _ => ?_
  have hk := ValueIdx.contrEquiv1_symm_val dot_S2000x256_S256x256_S2000x256_1_1_0_0_n_n 256 rfl rfl k
  have el : dot_S2000x256_S256x256_S2000x256_1_1_0_0_n_n.lhsIdx (ValueIdx.ix2 p e) ((ValueIdx.contrEquiv1 dot_S2000x256_S256x256_S2000x256_1_1_0_0_n_n 256 rfl rfl).symm k) = ValueIdx.ix2 p k := funext fun a => Fin.ext (by
    match a with
    | ⟨0, _⟩ => exact Pay1.lhsQ_0 _ _
    | ⟨1, _⟩ => exact (Pay1.lhsQ_1 _ _).trans hk)
  have er : dot_S2000x256_S256x256_S2000x256_1_1_0_0_n_n.rhsIdx (ValueIdx.ix2 p e) ((ValueIdx.contrEquiv1 dot_S2000x256_S256x256_S2000x256_1_1_0_0_n_n 256 rfl rfl).symm k) = ValueIdx.ix2 e k := funext fun a => Fin.ext (by
    match a with
    | ⟨0, _⟩ => exact Pay1.rhsQ_0 _ _
    | ⟨1, _⟩ => exact (Pay1.rhsQ_1 _ _).trans hk)
  rw [el, er]

theorem Pay1.lhsS_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem Pay1.lhsS_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem Pay1.rhsS_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem Pay1.rhsS_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q

/-- The query rows times the key rows, contracting the second axis of both: at `(p, j)` the sum over `e` of
    `x p e · w j e`. -/
theorem Pay1.matmulS_apply (x : FVec Ideal S2000x256 .bf16) (w : FVec Ideal S1024x256 .bf16) (p : Fin 2000) (j : Fin 1024) :
    matmul dot_S2000x256_S1024x256_S2000x1024_1_1_0_0_n_n none x w (constant (F := Ideal) S2000x1024 .f32 0x00000000#32) (ValueIdx.ix2 p j)
      = ∑ e : Fin 256, x (ValueIdx.ix2 p e) * w (ValueIdx.ix2 j e) := by
  refine (Ideal.matmul_constant_zero_apply dot_S2000x256_S1024x256_S2000x1024_1_1_0_0_n_n none x w (ValueIdx.ix2 p j)).trans ?_
  rw [← Equiv.sum_comp (ValueIdx.contrEquiv1 dot_S2000x256_S1024x256_S2000x1024_1_1_0_0_n_n 256 rfl rfl).symm]
  refine Finset.sum_congr rfl fun k _ => ?_
  have hk := ValueIdx.contrEquiv1_symm_val dot_S2000x256_S1024x256_S2000x1024_1_1_0_0_n_n 256 rfl rfl k
  have el : dot_S2000x256_S1024x256_S2000x1024_1_1_0_0_n_n.lhsIdx (ValueIdx.ix2 p j) ((ValueIdx.contrEquiv1 dot_S2000x256_S1024x256_S2000x1024_1_1_0_0_n_n 256 rfl rfl).symm k) = ValueIdx.ix2 p k := funext fun a => Fin.ext (by
    match a with
    | ⟨0, _⟩ => exact Pay1.lhsS_0 _ _
    | ⟨1, _⟩ => exact (Pay1.lhsS_1 _ _).trans hk)
  have er : dot_S2000x256_S1024x256_S2000x1024_1_1_0_0_n_n.rhsIdx (ValueIdx.ix2 p j) ((ValueIdx.contrEquiv1 dot_S2000x256_S1024x256_S2000x1024_1_1_0_0_n_n 256 rfl rfl).symm k) = ValueIdx.ix2 j k := funext fun a => Fin.ext (by
    match a with
    | ⟨0, _⟩ => exact Pay1.rhsS_0 _ _
    | ⟨1, _⟩ => exact (Pay1.rhsS_1 _ _).trans hk)
  rw [el, er]

theorem Pay1.lhsO_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem Pay1.lhsO_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
theorem Pay1.rhsO_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
theorem Pay1.rhsO_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

/-- The weights times the table, contracting the weights' second axis with the table's first: at `(p, d)` the sum over
    `j` of `x p j · w j d`. -/
theorem Pay1.matmulO_apply (x : FVec Ideal S2000x1024 .bf16) (w : FVec Ideal S1024x256 .bf16) (p : Fin 2000) (d : Fin 256) :
    matmul dot_S2000x1024_S1024x256_S2000x256_1_0_0_1_n_n none x w (constant (F := Ideal) S2000x256 .f32 0x00000000#32) (ValueIdx.ix2 p d)
      = ∑ j : Fin 1024, x (ValueIdx.ix2 p j) * w (ValueIdx.ix2 j d) := by
  refine (Ideal.matmul_constant_zero_apply dot_S2000x1024_S1024x256_S2000x256_1_0_0_1_n_n none x w (ValueIdx.ix2 p d)).trans ?_
  rw [← Equiv.sum_comp (ValueIdx.contrEquiv1 dot_S2000x1024_S1024x256_S2000x256_1_0_0_1_n_n 1024 rfl rfl).symm]
  refine Finset.sum_congr rfl fun k _ => ?_
  have hk := ValueIdx.contrEquiv1_symm_val dot_S2000x1024_S1024x256_S2000x256_1_0_0_1_n_n 1024 rfl rfl k
  have el : dot_S2000x1024_S1024x256_S2000x256_1_0_0_1_n_n.lhsIdx (ValueIdx.ix2 p d) ((ValueIdx.contrEquiv1 dot_S2000x1024_S1024x256_S2000x256_1_0_0_1_n_n 1024 rfl rfl).symm k) = ValueIdx.ix2 p k := funext fun a => Fin.ext (by
    match a with
    | ⟨0, _⟩ => exact Pay1.lhsO_0 _ _
    | ⟨1, _⟩ => exact (Pay1.lhsO_1 _ _).trans hk)
  have er : dot_S2000x1024_S1024x256_S2000x256_1_0_0_1_n_n.rhsIdx (ValueIdx.ix2 p d) ((ValueIdx.contrEquiv1 dot_S2000x1024_S1024x256_S2000x256_1_0_0_1_n_n 1024 rfl rfl).symm k) = ValueIdx.ix2 k d := funext fun a => Fin.ext (by
    match a with
    | ⟨0, _⟩ => exact (Pay1.rhsO_0 _ _).trans hk
    | ⟨1, _⟩ => exact Pay1.rhsO_1 _ _)
  rw [el, er]

/-! ## The two lane reductions, read at a row -/

/-- The inserted index of a row `p` with lane `k` is `(p, k)`. -/
theorem Pay1.lift_row (h : S2000x1024.Reduces [1] S2000) (p : Fin 2000) (k : Fin 1024) :
    h.lift (ValueIdx.ix1 p) k = ValueIdx.ix2 p k :=
  funext fun c => Fin.ext (by
    match c with
    | ⟨0, _⟩ => rfl
    | ⟨1, _⟩ => rfl)

/-- The lane sum of a row: the sum over the row's 1024 entries. -/
theorem Pay1.rowSum_apply (x : FVec Ideal S2000x1024 .f32) (h : S2000x1024.Reduces [1] S2000) (hφ : FKind.Formats .f32)
    (hacc : (0x00000000#32 : BitVec 32) = 0x00000000#32) (p : Fin 2000) :
    multiReduction (F := Ideal) .add [1] S2000 x 0x00000000#32 h hφ hacc (ValueIdx.ix1 p) = ∑ j : Fin 1024, x (ValueIdx.ix2 p j) := by
  refine (Ideal.multiReduction_add_single x 0x00000000#32 h hφ hacc (ValueIdx.ix1 p)).trans ?_
  exact Finset.sum_congr rfl fun k _ => congrArg x (Pay1.lift_row h p k)

/-- The lane maximum of a row: the fold of `max` from `-∞` over the row's 1024 entries. -/
theorem Pay1.rowMax_apply (x : FVec Ideal S2000x1024 .f32) (h : S2000x1024.Reduces [1] S2000) (hφ : FKind.Formats .f32)
    (hacc : (0xFF800000#32 : BitVec 32) = 0xFF800000#32) (p : Fin 2000) :
    multiReduction (F := Ideal) .maximumf [1] S2000 x 0xFF800000#32 h hφ hacc (ValueIdx.ix1 p)
      = maxRow fun j => x (ValueIdx.ix2 p j) := by
  refine (Ideal.multiReduction_maximumf_single x 0xFF800000#32 h hφ hacc (ValueIdx.ix1 p)).trans ?_
  unfold maxRow
  have e : (x ∘ h.lift (ValueIdx.ix1 p)) = fun j => x (ValueIdx.ix2 p j) := funext fun k => congrArg x (Pay1.lift_row h p k)
  rw [e]
  exact congrArg (fun b => (Finset.univ : Finset (Fin 1024)).fold max b fun j => x (ValueIdx.ix2 p j)) ofBits_neg_inf

/-! ## The stored value in stages -/

/-- The projected query rows of the block: the block times the query weights, plus the bias row. -/
def Pay1.qry (v0 : FVec Ideal S2000x256 .f32) (v1 : FVec Ideal S256x256 .f32) (v5 : FVec Ideal S1x256 .f32) :
    FVec Ideal S2000x256 .f32 :=
  addf (matmul dot_S2000x256_S256x256_S2000x256_1_1_0_0_n_n none (truncf .bf16 v0 Gen.bitsLt_bf16_f32) (truncf .bf16 v1 Gen.bitsLt_bf16_f32)
      (constant S2000x256 .f32 0x00000000#32))
    (broadcastTo S2000x256 (shapeCast S1x256 v5 Gen.shapeCasts_S1x256_S1x256) Gen.broadcasts_S1x256_S2000x256)

/-- The scaled scores of the query rows against the key rows. -/
def Pay1.scr (q : FVec Ideal S2000x256 .f32) (v9 : FVec Ideal S1024x256 .f32) : FVec Ideal S2000x1024 .f32 :=
  mulf (matmul dot_S2000x256_S1024x256_S2000x1024_1_1_0_0_n_n none (truncf .bf16 q Gen.bitsLt_bf16_f32)
      (truncf .bf16 (shapeCast S1024x256 v9 Gen.shapeCasts_S1024x256_S1024x256) Gen.bitsLt_bf16_f32)
      (constant S2000x1024 .f32 0x00000000#32))
    (broadcast S2000x1024 (Scalar.ofBits (F := Ideal) .f32 0x3D800000#32))

/-- The unnormalised weights: the exponential of a score less its row's maximum. -/
def Pay1.wts (s : FVec Ideal S2000x1024 .f32) : FVec Ideal S2000x1024 .f32 :=
  exp (subf s (broadcastTo S2000x1024
    (shapeCast S2000x1 (multiReduction .maximumf [1] S2000 s 0xFF800000#32 Gen.reduces_S2000x1024_S2000 (.inl rfl) rfl)
      Gen.shapeCasts_S2000_S2000x1) Gen.broadcasts_S2000x1_S2000x1024))

/-- The weighted sums of the table's rows, each divided by its row's sum of weights. -/
def Pay1.out (w : FVec Ideal S2000x1024 .f32) (v21 : FVec Ideal S1024x256 .f32) : FVec Ideal S2000x256 .f32 :=
  divf (matmul dot_S2000x1024_S1024x256_S2000x256_1_0_0_1_n_n none (truncf .bf16 w Gen.bitsLt_bf16_f32)
      (truncf .bf16 (shapeCast S1024x256 v21 Gen.shapeCasts_S1024x256_S1024x256) Gen.bitsLt_bf16_f32)
      (constant S2000x256 .f32 0x00000000#32))
    (broadcastTo S2000x256
      (shapeCast S2000x1 (multiReduction .add [1] S2000 w 0x00000000#32 Gen.reduces_S2000x1024_S2000 (.inl rfl) rfl)
        Gen.shapeCasts_S2000_S2000x1) Gen.broadcasts_S2000x1_S2000x256)

/-- The stored value is the four stages composed. -/
theorem Pay1.pay_eq (v0 : Vec Ideal S2000x256 .f32) (v1 : Vec Ideal S256x256 .f32) (v5 : Vec Ideal S1x256 .f32)
    (v9 : Vec Ideal S1024x256 .f32) (v21 : Vec Ideal S1024x256 .f32) :
    Cert.KernelIdeal.Gen.k1_pay1 (F := Ideal) v0 v1 v5 v9 v21
      = Pay1.out (Pay1.wts (Pay1.scr (Pay1.qry v0 v1 v5) v9)) v21 := rfl

/-- A query row at `(p, e)` is the specification's projected row. -/
theorem Pay1.qry_apply (v0 : FVec Ideal S2000x256 .f32) (v1 : FVec Ideal S256x256 .f32) (v5 : FVec Ideal S1x256 .f32)
    (p : Fin 2000) (e : Fin 256) :
    Pay1.qry v0 v1 v5 (ValueIdx.ix2 p e) = projRow (mat v0 p) (mat v1) (fun e => v5 (ValueIdx.ix2 0 e)) e := by
  unfold Pay1.qry projRow mat
  rw [ValueIdx.addf_apply, Pay1.matmulQ_apply, shapeCast_self, ValueIdx.broadcastTo_1b_ab_apply]
  rfl

/-- A score at `(p, j)` is the specification's scaled score of row `p` against key `j`. -/
theorem Pay1.scr_apply (q : FVec Ideal S2000x256 .f32) (v9 : FVec Ideal S1024x256 .f32) (p : Fin 2000) (j : Fin 1024) :
    Pay1.scr q v9 (ValueIdx.ix2 p j) = scoreRow (fun e => q (ValueIdx.ix2 p e)) (mat v9) j := by
  unfold Pay1.scr scoreRow mat
  rw [ValueIdx.mulf_apply, Pay1.matmulS_apply, shapeCast_self, ValueIdx.broadcast_apply]
  exact congrArg (fun c => (∑ e : Fin 256, q (ValueIdx.ix2 p e) * v9 (ValueIdx.ix2 j e)) * c) ofBits_sixteenth

/-- A weight at `(p, j)` is the specification's weight of row `p`'s scores at `j`. -/
theorem Pay1.wts_apply (s : FVec Ideal S2000x1024 .f32) (p : Fin 2000) (j : Fin 1024) :
    Pay1.wts s (ValueIdx.ix2 p j) = wtsRow (fun j => s (ValueIdx.ix2 p j)) j := by
  unfold Pay1.wts wtsRow
  refine congrArg (fun m => Ideal.exp (s (ValueIdx.ix2 p j) - m)) ?_
  rw [Pay1.broadcastTo_a1_ab_apply, Pay1.shapeCast_a_a1_apply]
  exact Pay1.rowMax_apply s _ _ _ p

/-- The last stage at `(p, d)`: the weighted sum of the table's column `d` over the sum of the weights. -/
theorem Pay1.out_apply (w : FVec Ideal S2000x1024 .f32) (v21 : FVec Ideal S1024x256 .f32) (p : Fin 2000) (d : Fin 256) :
    Pay1.out w v21 (ValueIdx.ix2 p d)
      = Ideal.div (∑ j : Fin 1024, w (ValueIdx.ix2 p j) * v21 (ValueIdx.ix2 j d)) (∑ j : Fin 1024, w (ValueIdx.ix2 p j)) := by
  unfold Pay1.out
  rw [ValueIdx.divf_apply, Pay1.matmulO_apply, shapeCast_self, Pay1.broadcastTo_a1_ab_apply, Pay1.shapeCast_a_a1_apply]
  exact congrArg (fun c => Ideal.div (∑ j : Fin 1024, w (ValueIdx.ix2 p j) * v21 (ValueIdx.ix2 j d)) c)
    (Pay1.rowSum_apply w _ _ _ p)

theorem pay_out (v0 : Vec Ideal S2000x256 .f32) (v1 : Vec Ideal S256x256 .f32) (v5 : Vec Ideal S1x256 .f32)
    (v9 : Vec Ideal S1024x256 .f32) (v21 : Vec Ideal S1024x256 .f32) (y : Fin 2000) (d : Fin 256) :
    Cert.KernelIdeal.Gen.k1_pay1 (F := Ideal) v0 v1 v5 v9 v21 (ValueIdx.ix2 y d)
      = outRowK (scoreRow (projRow (mat v0 y) (mat v1) (fun e => v5 (ValueIdx.ix2 0 e))) (mat v9)) (mat v21) d := by
  rw [Pay1.pay_eq, Pay1.out_apply]
  have hs : (fun j => Pay1.scr (Pay1.qry v0 v1 v5) v9 (ValueIdx.ix2 y j))
      = scoreRow (projRow (mat v0 y) (mat v1) (fun e => v5 (ValueIdx.ix2 0 e))) (mat v9) := by
    funext j
    rw [Pay1.scr_apply]
    exact congrArg (fun q => scoreRow q (mat v9) j) (funext fun e => Pay1.qry_apply v0 v1 v5 y e)
  have hw : ∀ j : Fin 1024, Pay1.wts (Pay1.scr (Pay1.qry v0 v1 v5) v9) (ValueIdx.ix2 y j)
      = wtsRow (scoreRow (projRow (mat v0 y) (mat v1) (fun e => v5 (ValueIdx.ix2 0 e))) (mat v9)) j := fun j => by
    rw [Pay1.wts_apply, hs]
  unfold outRowK
  simp only [hw]
  rfl

end Cert.Attn

end
-- ==== Proof.KernelValue.lean ====
/-
  The kernel's result array as a function of the seven argument arrays.

  The program is two regions after two host reshapes.  The first region is one point whose blocks are whole arrays: it
  leaves the mixed table (first arrangement) and the projected keys.  The second region has five points; point `t` reads
  rows `2000 t … 2000 t + 1999` of `main` and writes the same rows of the result, each row the first arrangement of
  the output row from that row of `main`, the query weights and bias, and the first region's two arrays.  The five blocks
  cover the result (row `r` lies in the block of point `r / 2000`), so the array after the run is `resultK` of the
  arguments.
-/
import proofs.«147907_g52209622450808_cont_9to1_m_767_3_alg».proof.Proof.KernelRun
import proofs.«147907_g52209622450808_cont_9to1_m_767_3_alg».proof.Proof.Pay0
import proofs.«147907_g52209622450808_cont_9to1_m_767_3_alg».proof.Proof.Pay1
import proofs.«147907_g52209622450808_cont_9to1_m_767_3_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen

/-- A matrix as a rank-2 array. -/
def arr2 {a b : Nat} (f : Mat a b) : (⟨2, ![a, b]⟩ : Shape).Idx → EReal :=
  fun i => f ⟨(i 0).val, ValueIdx.idx2_lt0 i⟩ ⟨(i 1).val, ValueIdx.idx2_lt1 i⟩

theorem arr2_ix2 {a b : Nat} (f : Mat a b) (p : Fin a) (q : Fin b) : arr2 f (ValueIdx.ix2 p q) = f p q := rfl

theorem mat_arr2 {a b : Nat} (f : Mat a b) : mat (arr2 f) = f := rfl

/-- An array that agrees with a matrix at every pair of coordinates is that matrix as an array. -/
theorem eq_arr2 {a b : Nat} (x : (⟨2, ![a, b]⟩ : Shape).Idx → EReal) (f : Mat a b)
    (h : ∀ p q, x (ValueIdx.ix2 p q) = f p q) : x = arr2 f := by
  funext i
  obtain ⟨p, q, rfl⟩ : ∃ (p : Fin a) (q : Fin b), i = ValueIdx.ix2 p q := ⟨i 0, i 1, ValueIdx.eq_ix2 i⟩
  exact h p q

theorem hz : (![0, 0] : Fin 2 → Nat) = fun _ => 0 := funext fun a => by fin_cases a <;> rfl

/-! ## The first region, at the contents `V` it is entered with -/

section Region0

variable (V : (c : Dev nD) → (b : Ref sig .tc) → Buf (Elt Ideal) ((c : Thread nD τ).loc b))

/-- The payloads as arrays. -/
theorem pay_mix_arr (v0 : Vec Ideal S4096x1024 .f32) (v7 : Vec Ideal S1024x256 .f32) :
    k0_pay1 (F := Ideal) v0 v7 = arr2 (mixK (mat v0) (mat v7)) := eq_arr2 _ _ (pay_mix v0 v7)

theorem pay_keys_arr (v7 : Vec Ideal S1024x256 .f32) (v14 : Vec Ideal S256x256 .f32) (v18 : Vec Ideal S1x256 .f32) :
    k0_pay2 (F := Ideal) v7 v14 v18 = arr2 (keys (mat v7) (mat v14) (fun e' => v18 (ValueIdx.ix2 0 e'))) :=
  eq_arr2 _ _ (pay_keys v7 v14 v18)

/-- Every window of the first region is its whole array at block index zero. -/
theorem idx0 (w : Fin cfg0.W) (t : Fin cfg0.N) : (fun a => (cfg0.win w).index t a * (cfg0.win w).size a) = fun _ => 0 := by
  funext a
  fin_cases w <;> fin_cases a <;> rfl

theorem iblk0_0 (c : Dev nD) (t : Fin cfg0.N) :
    (iblk0 V c 0 t : Vec Ideal S4096x1024 .f32) = (V c main_arg2 : Vec Ideal S4096x1024 .f32) := by
  unfold iblk0
  exact Memref.read_access_unit_zero (Elt Ideal) main_arg2 (idx0 0 t) (fun a => by rw [congrFun (idx0 0 t) a]; simp) (V c main_arg2)

theorem iblk0_1 (c : Dev nD) (t : Fin cfg0.N) :
    (iblk0 V c 1 t : Vec Ideal S1024x256 .f32) = (V c main_arg1 : Vec Ideal S1024x256 .f32) := by
  unfold iblk0
  exact Memref.read_access_unit_zero (Elt Ideal) main_arg1 (idx0 1 t) (fun a => by rw [congrFun (idx0 1 t) a]; simp) (V c main_arg1)

theorem iblk0_2 (c : Dev nD) (t : Fin cfg0.N) :
    (iblk0 V c 2 t : Vec Ideal S256x256 .f32) = (V c main_arg5 : Vec Ideal S256x256 .f32) := by
  unfold iblk0
  exact Memref.read_access_unit_zero (Elt Ideal) main_arg5 (idx0 2 t) (fun a => by rw [congrFun (idx0 2 t) a]; simp) (V c main_arg5)

theorem iblk0_3 (c : Dev nD) (t : Fin cfg0.N) :
    (iblk0 V c 3 t : Vec Ideal S1x256 .f32) = (V c main_v1 : Vec Ideal S1x256 .f32) := by
  unfold iblk0
  exact Memref.read_access_unit_zero (Elt Ideal) main_v1 (idx0 3 t) (fun a => by rw [congrFun (idx0 3 t) a]; simp) (V c main_v1)

/-- The mixed table the first region leaves, as a function of the arrays it finds. -/
abbrev omOf (c : Dev nD) : Buf (Elt Ideal) ((c : Thread nD τ).loc main_v2_0) :=
  arr2 (mixK (mat (V c main_arg2 : Vec Ideal S4096x1024 .f32)) (mat (V c main_arg1 : Vec Ideal S1024x256 .f32)))

/-- The keys the first region leaves. -/
abbrev keysOf (c : Dev nD) : Buf (Elt Ideal) ((c : Thread nD τ).loc main_v2_1) :=
  arr2 (keys (mat (V c main_arg1 : Vec Ideal S1024x256 .f32)) (mat (V c main_arg5 : Vec Ideal S256x256 .f32))
    (fun e' => (V c main_v1 : Vec Ideal S1x256 .f32) (ValueIdx.ix2 0 e')))

theorem flushed0_4 (c : Dev nD) (t : Fin cfg0.N) :
    (dat0 V c).flushed 4 t = ((cfg0.win 4).blk t).view.read (Elt Ideal) (omOf V c) := by
  show (cfg0.win 4).cut (grid0.coords t) ((dat0 V c).after 4 t) = _
  rw [after0_4]
  unfold out0_4
  rw [View.canon_unit_zero hz]
  simp only [View.ld_unit_zero (S := S4096x1024) hz, View.ld_unit_zero (S := S1024x256) hz]
  rw [iblk0_0, iblk0_1, pay_mix_arr]
  exact (Memref.read_access_unit_zero (Elt Ideal) main_v2_0 (idx0 4 t) (fun a => by rw [congrFun (idx0 4 t) a]; simp) (omOf V c)).symm

theorem flushed0_5 (c : Dev nD) (t : Fin cfg0.N) :
    (dat0 V c).flushed 5 t = ((cfg0.win 5).blk t).view.read (Elt Ideal) (keysOf V c) := by
  show (cfg0.win 5).cut (grid0.coords t) ((dat0 V c).after 5 t) = _
  rw [after0_5]
  unfold out0_5
  rw [View.canon_unit_zero hz]
  simp only [View.ld_unit_zero (S := S1024x256) hz, View.ld_unit_zero (S := S256x256) hz, View.ld_unit_zero (S := S1x256) hz]
  rw [iblk0_1, iblk0_2, iblk0_3, pay_keys_arr]
  exact (Memref.read_access_unit_zero (Elt Ideal) main_v2_1 (idx0 5 t) (fun a => by rw [congrFun (idx0 5 t) a]; simp) (keysOf V c)).symm

/-- The one point's block covers the array. -/
theorem final0_4 (c : Dev nD) : (dat0 V c).arrAt 4 cfg0.N = omOf V c :=
  (dat0 V c).arrAt_eq_of_cover 4 (omOf V c) (fun t _ => flushed0_4 V c t) fun i =>
    ⟨t0_0, flush0_4 t0_0, by
      show i ∈ ((View.whole main_v2_0).slice (win0_4.rect t0_0)).set
      rw [View.set_slice_whole, Rect.mem_set_unit]
      intro a
      have h0 : (i 0 : Nat) < 1024 := (i 0).isLt
      have h1 : (i 1 : Nat) < 256 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from by decide +kernel, show win0_4.xsize (grid0.coords t0_0) 0 = 1024 from by decide +kernel]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from by decide +kernel, show win0_4.xsize (grid0.coords t0_0) 1 = 256 from by decide +kernel]; omega⟩

theorem final0_5 (c : Dev nD) : (dat0 V c).arrAt 5 cfg0.N = keysOf V c :=
  (dat0 V c).arrAt_eq_of_cover 5 (keysOf V c) (fun t _ => flushed0_5 V c t) fun i =>
    ⟨t0_0, flush0_5 t0_0, by
      show i ∈ ((View.whole main_v2_1).slice (win0_5.rect t0_0)).set
      rw [View.set_slice_whole, Rect.mem_set_unit]
      intro a
      have h0 : (i 0 : Nat) < 1024 := (i 0).isLt
      have h1 : (i 1 : Nat) < 256 := (i 1).isLt
      match a with
      | ⟨0, _⟩ =>
        show win0_5.index t0_0 0 * win0_5.size 0 ≤ (i 0 : Nat) ∧ (i 0 : Nat) < win0_5.index t0_0 0 * win0_5.size 0 + win0_5.xsize (grid0.coords t0_0) 0
        rw [show win0_5.index t0_0 0 * win0_5.size 0 = 0 from by decide +kernel, show win0_5.xsize (grid0.coords t0_0) 0 = 1024 from by decide +kernel]; omega
      | ⟨1, _⟩ =>
        show win0_5.index t0_0 1 * win0_5.size 1 ≤ (i 1 : Nat) ∧ (i 1 : Nat) < win0_5.index t0_0 1 * win0_5.size 1 + win0_5.xsize (grid0.coords t0_0) 1
        rw [show win0_5.index t0_0 1 * win0_5.size 1 = 0 from by decide +kernel, show win0_5.xsize (grid0.coords t0_0) 1 = 256 from by decide +kernel]; omega⟩

end Region0

/-! ## The second region, at the contents `V` it is entered with -/

section Region1

variable (V : (c : Dev nD) → (b : Ref sig .tc) → Buf (Elt Ideal) ((c : Thread nD τ).loc b))

/-- The printed index maps over the five points: the block of `main` and the output block move with the point along the
    rows; every other window stays at block zero. -/
theorem idx1 : ∀ t : Fin cfg1.N, win1_0.index t 0 = t.val ∧ win1_0.index t 1 = 0 ∧ win1_5.index t 0 = t.val ∧ win1_5.index t 1 = 0
    ∧ win1_1.index t 0 = 0 ∧ win1_1.index t 1 = 0 ∧ win1_2.index t 0 = 0 ∧ win1_2.index t 1 = 0
    ∧ win1_3.index t 0 = 0 ∧ win1_3.index t 1 = 0 ∧ win1_4.index t 0 = 0 ∧ win1_4.index t 1 = 0 :=
  (by decide +kernel : ∀ t : Fin grid1.N, _)

theorem off1_1 (t : Fin cfg1.N) : (fun a => (cfg1.win 1).index t a * (cfg1.win 1).size a) = fun _ => 0 := by
  obtain ⟨-, -, -, -, e0, e1, -⟩ := idx1 t
  funext a
  match a with
  | ⟨0, _⟩ => show win1_1.index t 0 * _ = 0; rw [e0, Nat.zero_mul]
  | ⟨1, _⟩ => show win1_1.index t 1 * _ = 0; rw [e1, Nat.zero_mul]

theorem off1_2 (t : Fin cfg1.N) : (fun a => (cfg1.win 2).index t a * (cfg1.win 2).size a) = fun _ => 0 := by
  obtain ⟨-, -, -, -, -, -, e0, e1, -⟩ := idx1 t
  funext a
  match a with
  | ⟨0, _⟩ => show win1_2.index t 0 * _ = 0; rw [e0, Nat.zero_mul]
  | ⟨1, _⟩ => show win1_2.index t 1 * _ = 0; rw [e1, Nat.zero_mul]

theorem off1_3 (t : Fin cfg1.N) : (fun a => (cfg1.win 3).index t a * (cfg1.win 3).size a) = fun _ => 0 := by
  obtain ⟨-, -, -, -, -, -, -, -, e0, e1, -⟩ := idx1 t
  funext a
  match a with
  | ⟨0, _⟩ => show win1_3.index t 0 * _ = 0; rw [e0, Nat.zero_mul]
  | ⟨1, _⟩ => show win1_3.index t 1 * _ = 0; rw [e1, Nat.zero_mul]

theorem off1_4 (t : Fin cfg1.N) : (fun a => (cfg1.win 4).index t a * (cfg1.win 4).size a) = fun _ => 0 := by
  obtain ⟨-, -, -, -, -, -, -, -, -, -, e0, e1⟩ := idx1 t
  funext a
  match a with
  | ⟨0, _⟩ => show win1_4.index t 0 * _ = 0; rw [e0, Nat.zero_mul]
  | ⟨1, _⟩ => show win1_4.index t 1 * _ = 0; rw [e1, Nat.zero_mul]

theorem iblk1_1 (c : Dev nD) (t : Fin cfg1.N) :
    (iblk1 V c 1 t : Vec Ideal S256x256 .f32) = (V c main_arg3 : Vec Ideal S256x256 .f32) := by
  unfold iblk1
  exact Memref.read_access_unit_zero (Elt Ideal) main_arg3 (off1_1 t) (fun a => by rw [congrFun (off1_1 t) a]; simp) (V c main_arg3)

theorem iblk1_2 (c : Dev nD) (t : Fin cfg1.N) :
    (iblk1 V c 2 t : Vec Ideal S1x256 .f32) = (V c main_v0 : Vec Ideal S1x256 .f32) := by
  unfold iblk1
  exact Memref.read_access_unit_zero (Elt Ideal) main_v0 (off1_2 t) (fun a => by rw [congrFun (off1_2 t) a]; simp) (V c main_v0)

theorem iblk1_3 (c : Dev nD) (t : Fin cfg1.N) :
    (iblk1 V c 3 t : Vec Ideal S1024x256 .f32) = (V c main_v2_1 : Vec Ideal S1024x256 .f32) := by
  unfold iblk1
  exact Memref.read_access_unit_zero (Elt Ideal) main_v2_1 (off1_3 t) (fun a => by rw [congrFun (off1_3 t) a]; simp) (V c main_v2_1)

theorem iblk1_4 (c : Dev nD) (t : Fin cfg1.N) :
    (iblk1 V c 4 t : Vec Ideal S1024x256 .f32) = (V c main_v2_0 : Vec Ideal S1024x256 .f32) := by
  unfold iblk1
  exact Memref.read_access_unit_zero (Elt Ideal) main_v2_0 (off1_4 t) (fun a => by rw [congrFun (off1_4 t) a]; simp) (V c main_v2_0)

/-- The block of `main` at point `t`, at its literal type. -/
abbrev mblk (c : Dev nD) (t : Fin cfg1.N) : Vec Ideal S2000x256 .f32 := iblk1 V c 0 t

/-- Row `y` of the block at point `t` is row `2000 t + y` of `main`. -/
theorem mblk_apply (c : Dev nD) (t : Fin cfg1.N) (y : Fin 2000) (k : Fin 256) (r : Fin 10000) (hr : r.val = 2000 * t.val + y.val) :
    mblk V c t (ValueIdx.ix2 y k) = (V c main_arg0 : Vec Ideal S10000x256 .f32) (ValueIdx.ix2 r k) := by
  obtain ⟨e0, e1, -⟩ := idx1 t
  unfold mblk iblk1
  rw [View.read_apply]
  show V c main_arg0 _ = V c main_arg0 _
  congr 1
  funext a
  apply Fin.ext
  match a with
  | ⟨0, _⟩ => show win1_0.index t 0 * 2000 + 1 * y.val = r.val; rw [e0, hr]; omega
  | ⟨1, _⟩ => show win1_0.index t 1 * 256 + 1 * k.val = k.val; rw [e1]; omega

/-- What the second region leaves in the result array, as a function of the arrays it finds: row by row, the first
    arrangement of the output row. -/
abbrev outOf (c : Dev nD) : Buf (Elt Ideal) ((c : Thread nD τ).loc main_v3) :=
  arr2 (fun r => outRowK (scoreRow (projRow (mat (V c main_arg0 : Vec Ideal S10000x256 .f32) r) (mat (V c main_arg3 : Vec Ideal S256x256 .f32))
      (fun e => (V c main_v0 : Vec Ideal S1x256 .f32) (ValueIdx.ix2 0 e))) (mat (V c main_v2_1 : Vec Ideal S1024x256 .f32)))
    (mat (V c main_v2_0 : Vec Ideal S1024x256 .f32)))

theorem flushed1_5 (c : Dev nD) (t : Fin cfg1.N) :
    (dat1 V c).flushed 5 t = ((cfg1.win 5).blk t).view.read (Elt Ideal) (outOf V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz,
    View.ld_unit_zero (S := S1024x256) hz]
  rw [iblk1_1, iblk1_2, iblk1_3, iblk1_4]
  obtain ⟨-, -, e0, e1, -⟩ := idx1 t
  have hN : cfg1.N = 5 := N_1
  have ht : t.val < 5 := by have := t.isLt; omega
  funext y
  obtain ⟨p, q, rfl⟩ : ∃ (p : Fin 2000) (q : Fin 256), y = ValueIdx.ix2 p q := ⟨y 0, y 1, ValueIdx.eq_ix2 y⟩
  rw [View.read_apply]
  have hp : p.val < 2000 := p.isLt
  have he : ((cfg1.win 5).blk t).view.emb (ValueIdx.ix2 p q) = ValueIdx.ix2 (⟨2000 * t.val + p.val, by omega⟩ : Fin 10000) q := by
    funext a
    apply Fin.ext
    match a with
    | ⟨0, _⟩ => show win1_5.index t 0 * 2000 + 1 * p.val = 2000 * t.val + p.val; rw [e0]; omega
    | ⟨1, _⟩ => show win1_5.index t 1 * 256 + 1 * q.val = q.val; rw [e1]; omega
  show k1_pay1 (F := Ideal) (mblk V c t) (V c main_arg3) (V c main_v0) (V c main_v2_1) (V c main_v2_0) (ValueIdx.ix2 p q)
    = outOf V c (((cfg1.win 5).blk t).view.emb (ValueIdx.ix2 p q))
  rw [he]
  refine (pay_out (mblk V c t) (V c main_arg3) (V c main_v0) (V c main_v2_1) (V c main_v2_0) p q).trans ?_
  show _ = outRowK _ _ q
  have hrow : mat (mblk V c t) p = mat (V c main_arg0 : Vec Ideal S10000x256 .f32) (⟨2000 * t.val + p.val, by omega⟩ : Fin 10000) :=
    funext fun k => mblk_apply V c t p k _ rfl
  rw [hrow]

/-- Row `r` of the result lies in the block of point `r / 2000`. -/
theorem final1_5 (c : Dev nD) : (dat1 V c).arrAt 5 cfg1.N = outOf V c :=
  (dat1 V c).arrAt_eq_of_cover 5 (outOf V c) (fun t _ => flushed1_5 V c t) fun i => by
    have h0 : (i 0 : Nat) < 10000 := (i 0).isLt
    have h1 : (i 1 : Nat) < 256 := (i 1).isLt
    have hN : cfg1.N = 5 := N_1
    obtain ⟨t, ht⟩ : ∃ t : Fin cfg1.N, t.val = (i 0 : Nat) / 2000 := ⟨⟨(i 0 : Nat) / 2000, by omega⟩, rfl⟩
    obtain ⟨-, -, e0, e1, -⟩ := idx1 t
    refine ⟨t, flush1_5 t, ?_⟩
    show i ∈ ((View.whole main_v3).slice (win1_5.rect t)).set
    rw [View.set_slice_whole, Rect.mem_set_unit]
    intro a
    match a with
    | ⟨0, _⟩ =>
      show win1_5.index t 0 * 2000 ≤ (i 0 : Nat) ∧ (i 0 : Nat) < win1_5.index t 0 * 2000 + 2000
      rw [e0, ht]; omega
    | ⟨1, _⟩ =>
      show win1_5.index t 1 * 256 ≤ (i 1 : Nat) ∧ (i 1 : Nat) < win1_5.index t 1 * 256 + 256
      rw [e1]; omega

end Region1

/-! ## The two regions chained: the result array as a function of the launch memory -/

section Chain

variable (m : (ℓ : Loc nD τ sig) → Buf (Elt Ideal) ℓ) (ρ : Dev nD → PrngReg)

/-- The host side is two reshapes of the biases to one-row matrices; every argument is read through them unchanged. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-- A vector reshaped to a one-row matrix, read in that row, is the vector. -/
theorem reshape_row (x : Vec Ideal S256 .f32) (e : Fin 256) :
    shapeCast S1x256 x shapeCasts_S256_S1x256 (ValueIdx.ix2 0 e) = x (ValueIdx.ix1 e) := by
  refine shapeCast_apply x shapeCasts_S256_S1x256 (ValueIdx.ix2 0 e) (ValueIdx.ix1 e) ?_
  rw [Shape.rowMajor_val_one, Shape.rowMajor_val_two]
  show e.val = 0 * 256 + e.val
  omega

theorem W1_v0_row (c : Dev nD) (e : Fin 256) :
    (W1 m ρ c (Proc.devRef .tc main_v0) : Vec Ideal S1x256 .f32) (ValueIdx.ix2 0 e) = row (m ((c : Thread nD τ).loc main_arg4)) e := by
  have h : (W1 m ρ c (Proc.devRef .tc main_v0) : Vec Ideal S1x256 .f32)
      = fun i => shapeCast S1x256 (m ((c : Thread nD τ).loc main_arg4) : Vec Ideal S256 .f32) shapeCasts_S256_S1x256 i := by
    show StableHlo.after hostOps0 (W0 m ρ c) (Proc.devRef .tc main_v0) = _
    after_results
    rfl
  rw [h]
  exact reshape_row _ e

theorem W1_v1_row (c : Dev nD) (e : Fin 256) :
    (W1 m ρ c (Proc.devRef .tc main_v1) : Vec Ideal S1x256 .f32) (ValueIdx.ix2 0 e) = row (m ((c : Thread nD τ).loc main_arg6)) e := by
  have h : (W1 m ρ c (Proc.devRef .tc main_v1) : Vec Ideal S1x256 .f32)
      = fun i => shapeCast S1x256 (m ((c : Thread nD τ).loc main_arg6) : Vec Ideal S256 .f32) shapeCasts_S256_S1x256 i := by
    show StableHlo.after hostOps0 (W0 m ρ c) (Proc.devRef .tc main_v1) = _
    after_results
    rfl
  rw [h]
  exact reshape_row _ e

/-- What the first region leaves, as the second finds it: the mixed table and the keys of the arguments. -/
theorem V2_om (c : Dev nD) : (V2 m ρ c main_v2_0 : Vec Ideal S1024x256 .f32)
    = arr2 (mixK (mat (m ((c : Thread nD τ).loc main_arg2))) (mat (m ((c : Thread nD τ).loc main_arg1)))) := by
  refine ((W2_arr m ρ c 4).trans (final0_4 (V1 m ρ) c)).trans ?_
  show arr2 (mixK (mat (W1 m ρ c (Proc.devRef .tc main_arg2))) (mat (W1 m ρ c (Proc.devRef .tc main_arg1)))) = _
  rw [W1_arg2, W1_arg1]

theorem V2_keys (c : Dev nD) : (V2 m ρ c main_v2_1 : Vec Ideal S1024x256 .f32)
    = arr2 (keys (mat (m ((c : Thread nD τ).loc main_arg1))) (mat (m ((c : Thread nD τ).loc main_arg5))) (row (m ((c : Thread nD τ).loc main_arg6)))) := by
  refine ((W2_arr m ρ c 5).trans (final0_5 (V1 m ρ) c)).trans ?_
  show arr2 (keys (mat (W1 m ρ c (Proc.devRef .tc main_arg1))) (mat (W1 m ρ c (Proc.devRef .tc main_arg5)))
    (fun e' => (W1 m ρ c (Proc.devRef .tc main_v1) : Vec Ideal S1x256 .f32) (ValueIdx.ix2 0 e'))) = _
  rw [W1_arg1, W1_arg5]
  congr 2
  exact funext fun e => W1_v1_row m ρ c e

theorem V2_arg0 (c : Dev nD) : (V2 m ρ c main_arg0 : Vec Ideal S10000x256 .f32) = m ((c : Thread nD τ).loc main_arg0) :=
  ((W2_of_ne m ρ c main_arg0 (by decide)).trans (W1_arg0 m ρ c))

theorem V2_arg3 (c : Dev nD) : (V2 m ρ c main_arg3 : Vec Ideal S256x256 .f32) = m ((c : Thread nD τ).loc main_arg3) :=
  ((W2_of_ne m ρ c main_arg3 (by decide)).trans (W1_arg3 m ρ c))

theorem V2_v0_row (c : Dev nD) (e : Fin 256) :
    (V2 m ρ c main_v0 : Vec Ideal S1x256 .f32) (ValueIdx.ix2 0 e) = row (m ((c : Thread nD τ).loc main_arg4)) e :=
  (congrFun (W2_of_ne m ρ c main_v0 (by decide)) (ValueIdx.ix2 0 e)).trans (W1_v0_row m ρ c e)

/-- The result array after the run is the first arrangement of the result, of the seven argument arrays. -/
theorem result_arr (c : Dev nD) : W3 m ρ c (Proc.devRef .tc main_v3)
    = arr2 (resultK (mat (m ((c : Thread nD τ).loc main_arg0))) (mat (m ((c : Thread nD τ).loc main_arg1)))
        (mat (m ((c : Thread nD τ).loc main_arg2))) (mat (m ((c : Thread nD τ).loc main_arg3)))
        (row (m ((c : Thread nD τ).loc main_arg4))) (mat (m ((c : Thread nD τ).loc main_arg5)))
        (row (m ((c : Thread nD τ).loc main_arg6)))) := by
  refine ((W3_arr m ρ c 5).trans (final1_5 (V2 m ρ) c)).trans ?_
  show arr2 (fun r => outRowK (scoreRow (projRow (mat (V2 m ρ c main_arg0 : Vec Ideal S10000x256 .f32) r) (mat (V2 m ρ c main_arg3 : Vec Ideal S256x256 .f32))
      (fun e => (V2 m ρ c main_v0 : Vec Ideal S1x256 .f32) (ValueIdx.ix2 0 e))) (mat (V2 m ρ c main_v2_1 : Vec Ideal S1024x256 .f32)))
    (mat (V2 m ρ c main_v2_0 : Vec Ideal S1024x256 .f32))) = _
  rw [V2_arg0, V2_arg3, V2_keys, V2_om, mat_arr2, mat_arr2]
  have hb : (fun e => (V2 m ρ c main_v0 : Vec Ideal S1x256 .f32) (ValueIdx.ix2 0 e)) = row (m ((c : Thread nD τ).loc main_arg4)) :=
    funext fun e => V2_v0_row m ρ c e
  rw [hb]
  rfl

end Chain

end Cert.Attn

end
-- ==== Proof.lean ====
/-
  An attention layer in two arrangements, equal over the extended reals.

  With `Q = main Wqᵀ + bq`, `K = other Wkᵀ + bk`, scores `a = Q Kᵀ / 16`, weights `p = exp (a - max a)` row by row, and the
  mixed table built from the Gram matrix `G = fixᵀ fix` — `R = √G` entrywise, `c j = ∑ i, R i j` — the kernel computes
  `om = R · (other / c)` and `out = (p · om) / ∑ p`, the reference `om = (R / c) · other` and `out = (p / ∑ p) · om`.

  * The two tables agree termwise where `c j ≠ 0`: off zero a quotient is a product with the inverse, and products of
    extended reals commute and associate.  Where a column sum is zero the reference divides zero by zero, which is why
    the precondition asks for non-zero column sums (where a Gram entry is negative both terms are zero, so nothing is
    asked there).
  * Finite arguments make every score a real, every weight a positive real and their sum `s` a positive real, so
    dividing by `s` is multiplying by the non-negative real `1/s`, which distributes over the sum of extended reals.
  * The quotient by 16 is the product with the kernel's factor 0.0625, exactly.

  The kernel's result array is read off its two regions block by block and the reference's off its operations one at a
  time; both are stated against one specification, and the laws above join its two arrangements.  The three frames are
  the generated ones (the reference's is its run with the result dropped); the idealization rewrote nothing, so it is
  preserved trivially.
-/
import proofs.«147907_g52209622450808_cont_9to1_m_767_3_alg».proof.Defs
import proofs.«147907_g52209622450808_cont_9to1_m_767_3_alg».proof.Proof.Gen.Kernel
import proofs.«147907_g52209622450808_cont_9to1_m_767_3_alg».proof.Proof.Gen.Kernel.Skeleton
import proofs.«147907_g52209622450808_cont_9to1_m_767_3_alg».proof.Proof.Gen.Kernel.Launch
import proofs.«147907_g52209622450808_cont_9to1_m_767_3_alg».proof.Proof.Gen.Kernel.Points
import proofs.«147907_g52209622450808_cont_9to1_m_767_3_alg».proof.Proof.Gen.Kernel.Frame
import proofs.«147907_g52209622450808_cont_9to1_m_767_3_alg».proof.Proof.Gen.KernelIdeal
import proofs.«147907_g52209622450808_cont_9to1_m_767_3_alg».proof.Proof.Gen.KernelIdeal.Skeleton
import proofs.«147907_g52209622450808_cont_9to1_m_767_3_alg».proof.Proof.Gen.KernelIdeal.Launch
import proofs.«147907_g52209622450808_cont_9to1_m_767_3_alg».proof.Proof.Gen.KernelIdeal.Points
import proofs.«147907_g52209622450808_cont_9to1_m_767_3_alg».proof.Proof.Gen.KernelIdeal.Frame
import proofs.«147907_g52209622450808_cont_9to1_m_767_3_alg».proof.Proof.Gen.ReferenceIdeal
import proofs.«147907_g52209622450808_cont_9to1_m_767_3_alg».proof.Proof.Gen.Pre_finite_inputs
import proofs.«147907_g52209622450808_cont_9to1_m_767_3_alg».proof.Proof.Gen.ReferenceIdeal.Run
import proofs.«147907_g52209622450808_cont_9to1_m_767_3_alg».proof.Proof.Gen.ReferenceIdeal.Read
import proofs.«147907_g52209622450808_cont_9to1_m_767_3_alg».proof.Proof.Spec
import proofs.«147907_g52209622450808_cont_9to1_m_767_3_alg».proof.Proof.Consts
import proofs.«147907_g52209622450808_cont_9to1_m_767_3_alg».proof.Proof.SpecLaws
import proofs.«147907_g52209622450808_cont_9to1_m_767_3_alg».proof.Proof.PreFacts
import proofs.«147907_g52209622450808_cont_9to1_m_767_3_alg».proof.Proof.RefValue
import proofs.«147907_g52209622450808_cont_9to1_m_767_3_alg».proof.Proof.Pay0
import proofs.«147907_g52209622450808_cont_9to1_m_767_3_alg».proof.Proof.Pay1
import proofs.«147907_g52209622450808_cont_9to1_m_767_3_alg».proof.Proof.KernelRun
import proofs.«147907_g52209622450808_cont_9to1_m_767_3_alg».proof.Proof.KernelValue
import Idealize.ShloMosaic.Adequacy
import Idealize.ShloMosaic.Init

noncomputable section

namespace Cert.Proof

open Idealize.ShloMosaic Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at one function of the arguments: the kernel at the specification's first
    arrangement, the reference at its second, and under the precondition the two are equal. -/
theorem algebraic : Cert.algebraic_KernelIdeal_ReferenceIdeal := by
  intro m ρ m' ρ' hpre hagree
  refine ⟨fun c => arr2 (resultK (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1)))
      (mat (m ((c.tc : Thread Cert.KernelIdeal.nD Cert.KernelIdeal.τ).loc Cert.KernelIdeal.main_arg2))) (mat (m ((c.tc : Thread Cert.KernelIdeal.nD Cert.KernelIdeal.τ).loc Cert.KernelIdeal.main_arg3)))
      (row (m ((c.tc : Thread Cert.KernelIdeal.nD Cert.KernelIdeal.τ).loc Cert.KernelIdeal.main_arg4))) (mat (m ((c.tc : Thread Cert.KernelIdeal.nD Cert.KernelIdeal.τ).loc Cert.KernelIdeal.main_arg5)))
      (row (m ((c.tc : Thread Cert.KernelIdeal.nD Cert.KernelIdeal.τ).loc Cert.KernelIdeal.main_arg6)))), ?_, ?_⟩
  · exact (θ_run Cert.KernelIdeal.defs _ _).mono
      (fun r h c => ⟨(h c).1.trans (Cert.Attn.result_arr m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v33_eq, a0, a1, a2, a3, a4, a5, a6]
    obtain ⟨h0, h1, h3, h4, h5, h6, hcs⟩ := Cert.Attn.pre_facts _ _ _ _ _ _ _ (hpre c)
    refine Cert.Attn.eq_arr2 _ _ fun r d => ?_
    rw [Cert.Attn.ref_value]
    exact (congrFun (congrFun (Cert.Attn.result_eq _ _ _ _ _ _ _ (fun r k => h0 _) (fun j k => h1 _) (fun e k => h3 _)
      (fun e => h4 _) (fun e k => h5 _) (fun e => h6 _) hcs) r) d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
